-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S10000 : Shape := ⟨1, ![10000]⟩
abbrev S1000000 : Shape := ⟨1, ![1000000]⟩
abbrev S128x128 : Shape := ⟨2, ![128, 128]⟩
abbrev S128 : Shape := ⟨1, ![128]⟩
abbrev S2x128 : Shape := ⟨2, ![2, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S2x128 .f32) (main_arg6 : FVec F S2x128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S1000000x128 .f32) (main_arg1 : FVec F S10000 .f32) (main_arg2 : IVec S1000000 32) (main_arg3 : FVec F S128x128 .f32) (main_arg4 : FVec F S128 .f32) (main_arg5 : FVec F S2x128 .f32) (main_arg6 : FVec F S2x128 .f32) (main_arg7 : FVec F S128x128 .f32) (main_arg8 : FVec F S128 .f32) (main_arg9 : FVec F S128x128 .f32) (main_arg10 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S1000000x128 : Shape := ⟨2, ![1000000, 128]⟩
abbrev S10000 : Shape := ⟨1, ![10000]⟩
abbrev S1000000 : Shape := ⟨1, ![1000000]⟩
abbrev S128x128 : Shape := ⟨2, ![128, 128]⟩
abbrev S128 : Shape := ⟨1, ![128]⟩
abbrev S2x128 : Shape := ⟨2, ![2, 128]⟩
abbrev S_ : Shape := ⟨0, ![]⟩
abbrev S1003520x128 : Shape := ⟨2, ![1003520, 128]⟩
abbrev S1003520 : Shape := ⟨1, ![1003520]⟩
abbrev S1003520x1 : Shape := ⟨2, ![1003520, 1]⟩
abbrev S1x128 : Shape := ⟨2, ![1, 128]⟩
abbrev S4096x128 : Shape := ⟨2, ![4096, 128]⟩
abbrev S4096x1 : Shape := ⟨2, ![4096, 1]⟩
abbrev S4096 : Shape := ⟨1, ![4096]⟩

abbrev nBuf : Space → Nat
  | .hbm => 57
  | .vmem => 24
  | .smem => 0
  | _ => 0

abbrev bufTy : (tb : Table) → Fin (tcTables nBuf tb) → BufTy
  | .hbm, ⟨0, _⟩ => ⟨S1000000x128, .f32⟩
  | .hbm, ⟨1, _⟩ => ⟨S10000, .f32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S_, .f32⟩
  | .hbm, ⟨13, _⟩ => ⟨S1003520x128, .f32⟩
  | .hbm, ⟨14, _⟩ => ⟨S_, .i32⟩
  | .hbm, ⟨15, _⟩ => ⟨S_, .i32⟩
  | .hbm, ⟨16, _⟩ => ⟨S1003520, .i32⟩
  | .hbm, ⟨17, _⟩ => ⟨S_, .i32⟩
  | .hbm, ⟨18, _⟩ => ⟨S1003520, .i32⟩
  | .hbm, ⟨19, _⟩ => ⟨S1003520, .i1⟩
  | .hbm, ⟨20, _⟩ => ⟨S_, .i32⟩
  | .hbm, ⟨21, _⟩ => ⟨S1003520, .i32⟩
  | .hbm, ⟨22, _⟩ => ⟨S1003520, .i32⟩
  | .hbm, ⟨23, _⟩ => ⟨S1003520, .i32⟩
  | .hbm, ⟨24, _⟩ => ⟨S1003520x1, .i32⟩
  | .hbm, ⟨25, _⟩ => ⟨S1003520, .f32⟩
  | .hbm, ⟨26, _⟩ => ⟨S1003520x1, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1003520x1, .f32⟩
  | .hbm, ⟨31, _⟩ => ⟨S1003520, .i32⟩
  | .hbm, ⟨32, _⟩ => ⟨S1003520x1, .i32⟩
  | .hbm, ⟨33, _⟩ => ⟨S_, .i32⟩
  | .hbm, ⟨34, _⟩ => ⟨S1003520x1, .i32⟩
  | .hbm, ⟨35, _⟩ => ⟨S1003520x1, .i1⟩
  | .hbm, ⟨36, _⟩ => ⟨S_, .f32⟩
  | .hbm, ⟨37, _⟩ => ⟨S_, .f32⟩
  | .hbm, ⟨38, _⟩ => ⟨S1003520x1, .f32⟩
  | .hbm, ⟨39, _⟩ => ⟨S1003520x1, .f32⟩
  | .hbm, ⟨40, _⟩ => ⟨S1003520, .f32⟩
  | .hbm, ⟨41, _⟩ => ⟨S_, .f32⟩
  | .hbm, ⟨42, _⟩ => ⟨S10000, .f32⟩
  | .hbm, ⟨43, _⟩ => ⟨S1003520x1, .i32⟩
  | .hbm, ⟨44, _⟩ => ⟨S10000, .f32⟩
  | .hbm, ⟨45, _⟩ => ⟨S_, .i32⟩
  | .hbm, ⟨46, _⟩ => ⟨S1003520, .i32⟩
  | .hbm, ⟨47, _⟩ => ⟨S1003520, .i1⟩
  | .hbm, ⟨48, _⟩ => ⟨S_, .i32⟩
  | .hbm, ⟨49, _⟩ => ⟨S1003520, .i32⟩
  | .hbm, ⟨50, _⟩ => ⟨S1003520, .i32⟩
  | .hbm, ⟨51, _⟩ => ⟨S1003520, .i32⟩
  | .hbm, ⟨52, _⟩ => ⟨S1003520x1, .i32⟩
  | .hbm, ⟨53, _⟩ => ⟨S1003520, .f32⟩
  | .hbm, ⟨54, _⟩ => ⟨S1003520x1, .f32⟩
  | .hbm, ⟨55, _⟩ => ⟨S1003520x128, .f32⟩
  | .hbm, ⟨56, _⟩ => ⟨S1000000x128, .f32⟩
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | .local _ .vmem, ⟨4, _⟩ => ⟨S128x128, .f32⟩
  | .local _ .vmem, ⟨5, _⟩ => ⟨S1x128, .f32⟩
  | .local _ .vmem, ⟨6, _⟩ => ⟨S2x128, .f32⟩
  | .local _ .vmem, ⟨7, _⟩ => ⟨S4096x1, .f32⟩
  | .local _ .vmem, ⟨8, _⟩ => ⟨S4096x1, .f32⟩
  | .local _ .vmem, ⟨9, _⟩ => ⟨S4096x128, .f32⟩
  | .local _ .vmem, ⟨10, _⟩ => ⟨S4096x128, .f32⟩
  | .local _ .vmem, ⟨11, _⟩ => ⟨S4096x1, .f32⟩
  | .local _ .vmem, ⟨12, _⟩ => ⟨S4096x1, .f32⟩
  | .local _ .vmem, ⟨13, _⟩ => ⟨S4096x1, .f32⟩
  | .local _ .vmem, ⟨14, _⟩ => ⟨S4096x1, .f32⟩
  | .local _ .vmem, ⟨15, _⟩ => ⟨S4096x1, .f32⟩
  | .local _ .vmem, ⟨16, _⟩ => ⟨S4096x1, .f32⟩
  | .local _ .vmem, ⟨17, _⟩ => ⟨S2x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_c_1 : Ref sig .tc := ⟨.hbm, 17, rfl⟩
abbrev main_v2 : Ref sig .tc := ⟨.hbm, 18, rfl⟩
abbrev main_v3 : Ref sig .tc := ⟨.hbm, 19, rfl⟩
abbrev main_c_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  pads_S1000000x128_S1003520x128_035200_000 : S1000000x128.Pads (![0, 0] : Fin 2 → Nat) ![3520, 0] ![0, 0] S1003520x128
  h_S_ : 0 < S_.numel
  pads_S1000000_S1003520_035200 : S1000000.Pads (![0] : Fin 1 → Nat) ![3520] ![0] S1003520
  bcast_S_S1003520 : S_.BroadcastsInDim S1003520 (![] : Fin 0 → Fin S1003520.rank)
  bcast_S1003520_S1003520x1_0 : S1003520.BroadcastsInDim S1003520x1 (![0] : Fin 1 → Fin S1003520x1.rank)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  slices_S2x128_o1_0_S1x128 : S2x128.Slices ![1, 0] S1x128
  broadcasts_S4096x1_S4096x128 : S4096x1.Broadcasts S4096x128
  reduces_S4096x128_S4096 : S4096x128.Reduces [1] S4096
  shapeCasts_S4096_S4096x1 : S4096.ShapeCasts S4096x1
  bcast_S_S1003520x1 : S_.BroadcastsInDim S1003520x1 (![] : Fin 0 → Fin S1003520x1.rank)
  shapeCasts_S1003520x1_S1003520 : S1003520x1.ShapeCasts S1003520
  bcast_S_S10000 : S_.BroadcastsInDim S10000 (![] : Fin 0 → Fin S10000.rank)
  slices_S1003520x128_S1000000x128_0_0 : S1003520x128.Slices ![0, 0] S1000000x128
  gather_S10000_S1003520x1_S1003520_n_0_n_n_0_1_1_wf : GatherDims.WF S10000 S1003520x1 S1003520 [] [0] [] [0] [] 1 ![1]
  dot_S4096x128_S128x128_S4096x128_1_0_0_1_n_n_wf : DotDims.WF S4096x128 S128x128 S4096x128 [1] [0] [0] [1] [] []
  scatter_S10000_S1003520x1_S1003520_n_0_0_1_wf : ScatterDims.WF S10000 S1003520x1 S1003520 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .f32 = 32 ∨ (Rect.block (s := S1003520x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1003520x1.size a
  hwx0_1 : ∀ i : grid0.Coords, EltTy.bits .f32 = 32 ∨ (Rect.block (s := S1003520x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S1003520x1.size a
  hwx0_5 : ∀ i : grid0.Coords, EltTy.bits .f32 = 32 ∨ (Rect.block (s := S1003520x1) S4096x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S1003520x128.size a
  hwx1_0 : ∀ i : grid1.Coords, EltTy.bits .f32 = 32 ∨ (Rect.block (s := S1003520x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1003520x1.size a
  hwx1_1 : ∀ i : grid1.Coords, EltTy.bits .f32 = 32 ∨ (Rect.block (s := S1003520x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S1003520x1.size a
  hwx1_2 : ∀ i : grid1.Coords, EltTy.bits .f32 = 32 ∨ (Rect.block (s := S1003520x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S1003520x1.size a
  hwx1_3 : ∀ i : grid1.Coords, EltTy.bits .f32 = 32 ∨ (Rect.block (s := S1003520x1) S4096x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x128.size a ≤ S2x128.size a
  hwx1_4 : ∀ i : grid1.Coords, EltTy.bits .f32 = 32 ∨ (Rect.block (s := S2x128) S2x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x128.size a ≤ S1003520x128.size a
  hwx1_9 : ∀ i : grid1.Coords, EltTy.bits .f32 = 32 ∨ (Rect.block (s := S1003520x128) S4096x128.size (cc1_transform_9 i) (hinb1_9 i)).WholeWords (EltTy.packing .f32)

variable [Facts₀]

def gather_S10000_S1003520x1_S1003520_n_0_n_n_0_1_1 : GatherDims S10000 S1003520x1 S1003520 where
  offsetDims := []
  collapsedSliceDims := [0]
  operandBatchingDims := []
  startIndicesBatchingDims := []
  startIndexMap := [0]
  indexVectorDim := 1
  sliceSizes := ![1]
  wf := gather_S10000_S1003520x1_S1003520_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S10000_S1003520x1_S1003520_n_0_0_1 : ScatterDims S10000 S1003520x1 S1003520 where
  updateWindowDims := []
  insertedWindowDims := [0]
  scatterDimsToOperandDims := [0]
  indexVectorDim := 1
  wf := scatter_S10000_S1003520x1_S1003520_n_0_0_1_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S4096x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S2x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S4096x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S10000 : Shape := ⟨1, ![10000]⟩
abbrev S1000000 : Shape := ⟨1, ![1000000]⟩
abbrev S128x128 : Shape := ⟨2, ![128, 128]⟩
abbrev S128 : Shape := ⟨1, ![128]⟩
abbrev S2x128 : Shape := ⟨2, ![2, 128]⟩
abbrev S10000x1 : Shape := ⟨2, ![10000, 1]⟩
abbrev S10000x2 : Shape := ⟨2, ![10000, 2]⟩
abbrev S_ : Shape := ⟨0, ![]⟩
abbrev S1x128 : Shape := ⟨2, ![1, 128]⟩
abbrev S10000x128 : Shape := ⟨2, ![10000, 128]⟩
abbrev S1000000x1 : Shape := ⟨2, ![1000000, 1]⟩

abbrev nBuf : Space → Nat
  | .hbm => 112
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S10000, .f32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S2x128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S10000, .f32⟩
  | .hbm, ⟨12, _⟩ => ⟨S10000x1, .f32⟩
  | .hbm, ⟨13, _⟩ => ⟨S10000x1, .f32⟩
  | .hbm, ⟨14, _⟩ => ⟨S10000x2, .f32⟩
  | .hbm, ⟨15, _⟩ => ⟨S_, .f32⟩
  | .hbm, ⟨16, _⟩ => ⟨S10000x2, .f32⟩
  | .hbm, ⟨17, _⟩ => ⟨S10000x2, .f32⟩
  | .hbm, ⟨18, _⟩ => ⟨S_, .f32⟩
  | .hbm, ⟨19, _⟩ => ⟨S10000x2, .f32⟩
  | .hbm, ⟨20, _⟩ => ⟨S10000x2, .f32⟩
  | .hbm, ⟨21, _⟩ => ⟨S1000000x128, .f32⟩
  | .hbm, ⟨22, _⟩ => ⟨S1x128, .f32⟩
  | .hbm, ⟨23, _⟩ => ⟨S1000000x128, .f32⟩
  | .hbm, ⟨24, _⟩ => ⟨S1000000x128, .f32⟩
  | .hbm, ⟨25, _⟩ => ⟨S10000x2, .f32⟩
  | .hbm, ⟨26, _⟩ => ⟨S10000x128, .f32⟩
  | .hbm, ⟨27, _⟩ => ⟨S10000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x128, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S1000000x128, .f32⟩
  | .hbm, ⟨47, _⟩ => ⟨S_, .f32⟩
  | .hbm, ⟨48, _⟩ => ⟨S1000000, .f32⟩
  | .hbm, ⟨49, _⟩ => ⟨S1000000x1, .f32⟩
  | .hbm, ⟨50, _⟩ => ⟨S_, .f32⟩
  | .hbm, ⟨51, _⟩ => ⟨S1000000x1, .f32⟩
  | .hbm, ⟨52, _⟩ => ⟨S1000000x1, .f32⟩
  | .hbm, ⟨53, _⟩ => ⟨S_, .f32⟩
  | .hbm, ⟨54, _⟩ => ⟨S1000000x1, .f32⟩
  | .hbm, ⟨55, _⟩ => ⟨S1000000x1, .f32⟩
  | .hbm, ⟨56, _⟩ => ⟨S1000000x1, .f32⟩
  | .hbm, ⟨57, _⟩ => ⟨S1000000x1, .f32⟩
  | .hbm, ⟨58, _⟩ => ⟨S1000000x1, .i1⟩
  | .hbm, ⟨59, _⟩ => ⟨S1000000x1, .f32⟩
  | .hbm, ⟨60, _⟩ => ⟨S1000000x1, .f32⟩
  | .hbm, ⟨61, _⟩ => ⟨S1000000x1, .f32⟩
  | .hbm, ⟨62, _⟩ => ⟨S1000000x1, .f32⟩
  | .hbm, ⟨63, _⟩ => ⟨S1000000x1, .f32⟩
  | .hbm, ⟨64, _⟩ => ⟨S1000000x1, .f32⟩
  | .hbm, ⟨65, _⟩ => ⟨S1000000x1, .f32⟩
  | .hbm, ⟨66, _⟩ => ⟨S1000000x1, .f32⟩
  | .hbm, ⟨67, _⟩ => ⟨S_, .f32⟩
  | .hbm, ⟨68, _⟩ => ⟨S10000x1, .f32⟩
  | .hbm, ⟨69, _⟩ => ⟨S1000000x1, .i32⟩
  | .hbm, ⟨70, _⟩ => ⟨S10000x1, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1000000x1, .f32⟩
  | .hbm, ⟨80, _⟩ => ⟨S1000000x128, .f32⟩
  | .hbm, ⟨81, _⟩ => ⟨S1000000x128, .f32⟩
  | .hbm, ⟨82, _⟩ => ⟨S1000000x128, .f32⟩
  | .hbm, ⟨83, _⟩ => ⟨S1000000x128, .f32⟩
  | .hbm, ⟨84, _⟩ => ⟨S1000000x128, .f32⟩
  | .hbm, ⟨85, _⟩ => ⟨S1x128, .f32⟩
  | .hbm, ⟨86, _⟩ => ⟨S1000000x128, .f32⟩
  | .hbm, ⟨87, _⟩ => ⟨S1000000x128, .f32⟩
  | .hbm, ⟨88, _⟩ => ⟨S1000000x128, .f32⟩
  | .hbm, ⟨89, _⟩ => ⟨S1000000x128, .f32⟩
  | .hbm, ⟨90, _⟩ => ⟨S_, .f32⟩
  | .hbm, ⟨91, _⟩ => ⟨S1000000x128, .f32⟩
  | .hbm, ⟨92, _⟩ => ⟨S1000000x128, .f32⟩
  | .hbm, ⟨93, _⟩ => ⟨S_, .f32⟩
  | .hbm, ⟨94, _⟩ => ⟨S1000000x128, .f32⟩
  | .hbm, ⟨95, _⟩ => ⟨S1000000x128, .f32⟩
  | .hbm, ⟨96, _⟩ => ⟨S1000000x128, .f32⟩
  | .hbm, ⟨97, _⟩ => ⟨S1000000x128, .f32⟩
  | .hbm, ⟨98, _⟩ => ⟨S1x128, .f32⟩
  | .hbm, ⟨99, _⟩ => ⟨S1000000x128, .f32⟩
  | .hbm, ⟨100, _⟩ => ⟨S1000000x128, .f32⟩
  | .hbm, ⟨101, _⟩ => ⟨S1000000x128, .f32⟩
  | .hbm, ⟨102, _⟩ => ⟨S1000000x128, .f32⟩
  | .hbm, ⟨103, _⟩ => ⟨S_, .f32⟩
  | .hbm, ⟨104, _⟩ => ⟨S1000000x128, .f32⟩
  | .hbm, ⟨105, _⟩ => ⟨S1000000x128, .f32⟩
  | .hbm, ⟨106, _⟩ => ⟨S_, .f32⟩
  | .hbm, ⟨107, _⟩ => ⟨S1000000x128, .f32⟩
  | .hbm, ⟨108, _⟩ => ⟨S1000000x128, .f32⟩
  | .hbm, ⟨109, _⟩ => ⟨S1000000x128, .f32⟩
  | .hbm, ⟨110, _⟩ => ⟨S1000000x128, .f32⟩
  | .hbm, ⟨111, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_6 : Ref sig .tc := ⟨.hbm, 71, rfl⟩
abbrev main_v37 : Ref sig .tc := ⟨.hbm, 72, rfl⟩
abbrev main_v38 : Ref sig .tc := ⟨.hbm, 73, rfl⟩
abbrev main_c_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S_S10000x2 : S_.BroadcastsInDim S10000x2 (![] : Fin 0 → Fin S10000x2.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S1000000x1 : S_.BroadcastsInDim S1000000x1 (![] : Fin 0 → Fin S1000000x1.rank)
  bcast_S_S10000x1 : S_.BroadcastsInDim S10000x1 (![] : Fin 0 → Fin S10000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  dot_S1000000x128_S128x128_S1000000x128_1_0_0_1_n_n_wf : DotDims.WF S1000000x128 S128x128 S1000000x128 [1] [0] [0] [1] [] []
  dot_S10000x2_S2x128_S10000x128_1_0_0_1_n_n_wf : DotDims.WF S10000x2 S2x128 S10000x128 [1] [0] [0] [1] [] []
  gather_S10000x128_S1000000x1_S1000000x128_1_0_n_n_0_1_1128_wf : GatherDims.WF S10000x128 S1000000x1 S1000000x128 [1] [0] [] [0] [] 1 ![1, 128]
  scatter_S10000x1_S1000000x1_S1000000x1_1_0_0_1_wf : ScatterDims.WF S10000x1 S1000000x1 S1000000x1 [1] [0] [0] 1
  gather_S10000x1_S1000000x1_S1000000x1_1_0_n_n_0_1_11_wf : GatherDims.WF S10000x1 S1000000x1 S1000000x1 [1] [0] [] [0] [] 1 ![1, 1]

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S10000x2_S2x128_S10000x128_1_0_0_1_n_n : DotDims S10000x2 S2x128 S10000x128 where
  lhsContracting := [1]
  rhsContracting := [0]
  lhsNonContracting := [0]
  rhsNonContracting := [1]
  lhsBatch := []
  rhsBatch := []
  wf := dot_S10000x2_S2x128_S10000x128_1_0_0_1_n_n_wf
def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf
def scatter_S10000x1_S1000000x1_S1000000x1_1_0_0_1 : ScatterDims S10000x1 S1000000x1 S1000000x1 where
  updateWindowDims := [1]
  insertedWindowDims := [0]
  scatterDimsToOperandDims := [0]
  indexVectorDim := 1
  wf := scatter_S10000x1_S1000000x1_S1000000x1_1_0_0_1_wf
def gather_S10000x1_S1000000x1_S1000000x1_1_0_n_n_0_1_11 : GatherDims S10000x1 S1000000x1 S1000000x1 where
  offsetDims := [1]
  collapsedSliceDims := [0]
  operandBatchingDims := []
  startIndicesBatchingDims := []
  startIndexMap := [0]
  indexVectorDim := 1
  sliceSizes := ![1, 1]
  wf := gather_S10000x1_S1000000x1_S1000000x1_1_0_n_n_0_1_11_wf

class Facts : Prop extends Facts₀ where

variable [Facts]
-- ==== Proof.Spec.lean ====
/-
  WHAT ONE NODE RECEIVES. A node n with features x = X[n, ·] belongs to the graph named by the word batch[n]; the graph's
  charge c is split into its positive and negative parts, p = max(c, 0) and q = max(-c, 0). The key of the node is the
  affine image p/max(p,1) · Wk[0] + q/max(q,1) · Wk[1], its value p · Wv[0] + q · Wv[1]; the query is x · Wq + bq. The
  node's score is softplus(s · <query, key>), s the float nearest 2^(-7/2). A graph's total is the sum of the scores of
  the nodes whose word names it exactly; the node reads the total of the graph its word names after wrapping a negative
  word once and clamping into the table. Its embedding is e = score · value / total, and the result row is
  x + e + silu(silu(e · W1 + b1) · W2 + b2).
  Everything is stated on the extended reals with the operations' total definitions, so that no side condition is owed:
  sums are sums in a commutative monoid, the quotient is the total one.
-/
import Idealize.ShloMosaic.PureOps.Ideal.Laws
import Idealize.ShloMosaic.Lib.ValueIdx

open scoped BigOperators

noncomputable section

namespace Cert.ChargeAttn

open Idealize.ShloMosaic Idealize.ShloMosaic.ValueIdx

/-! ## A graph's row from a node's word -/

/-- A negative word is wrapped once by the table's length. -/
def wrapWord (b : BitVec 32) : BitVec 32 := Scalar.select (IntOp.cmpi .slt b 0#32) (IntOp.addi b 10000#32) b

/-- A word read signed and clamped into the table of 10000 graphs. -/
def clampWord (b : BitVec 32) : Fin 10000 := ⟨min b.toInt.toNat (10000 - 1), by omega⟩

/-- The graph a node reads from: its word wrapped, then clamped. -/
def graphOf (b : BitVec 32) : Fin 10000 := clampWord (wrapWord b)

/-- The graph a node adds to: the one its word names exactly, if any. -/
def names (b : BitVec 32) (g : Fin 10000) : Prop := b.toInt = (g.val : Int)

instance (b : BitVec 32) (g : Fin 10000) : Decidable (names b g) := by unfold names; infer_instance

/-- A node's row in the arrays padded to 245 blocks of 4096 rows. -/
def padIdx (n : Fin 1000000) : Fin 1003520 := ⟨n.val, by have := n.isLt; omega⟩

/-! ## The scalar pieces -/

/-- The scale of the score, kept as the float's word. -/
def scale : EReal := Ideal.ofBits .f32 0x3DB504F3#32

def posPart (c : EReal) : EReal := max c 0
def negPart (c : EReal) : EReal := max (-c) 0
/-- p / max(p, 1). -/
def unitize (p : EReal) : EReal := Ideal.div p (max p 1)

/-- The key's entry d from the graph's charge. -/
def key (wk : Fin 2 → Fin 128 → EReal) (c : EReal) (d : Fin 128) : EReal :=
  unitize (posPart c) * wk 0 d + unitize (negPart c) * wk 1 d

/-- The value's entry d from the graph's charge. -/
def value (wv : Fin 2 → Fin 128 → EReal) (c : EReal) (d : Fin 128) : EReal :=
  posPart c * wv 0 d + negPart c * wv 1 d

/-- Entry d of x · W + b. -/
def affine (x : Fin 128 → EReal) (w : Fin 128 → Fin 128 → EReal) (b : Fin 128 → EReal) (d : Fin 128) : EReal :=
  (∑ j : Fin 128, x j * w j d) + b d

/-- softplus as max(z, 0) + log(1 + exp(-|z|)). -/
def softplus (z : EReal) : EReal := max z 0 + Ideal.log1p (Ideal.exp (-(max z (-z))))

/-- z · logistic z. -/
def silu (z : EReal) : EReal := z * Ideal.logistic z

/-- A node's score from its features and its graph's charge. -/
def score (x : Fin 128 → EReal) (wq : Fin 128 → Fin 128 → EReal) (bq : Fin 128 → EReal) (wk : Fin 2 → Fin 128 → EReal)
    (c : EReal) : EReal :=
  softplus ((∑ d : Fin 128, affine x wq bq d * key wk c d) * scale)

/-- The embedding's entry d: score · value / total. -/
def embed (a c s : EReal) (wv : Fin 2 → Fin 128 → EReal) (d : Fin 128) : EReal := Ideal.div (a * value wv c d) s

/-- The result row's entry d. -/
def outRow (x : Fin 128 → EReal) (a c s : EReal) (wv : Fin 2 → Fin 128 → EReal)
    (w1 : Fin 128 → Fin 128 → EReal) (b1 : Fin 128 → EReal) (w2 : Fin 128 → Fin 128 → EReal) (b2 : Fin 128 → EReal)
    (d : Fin 128) : EReal :=
  x d + embed a c s wv d + silu (affine (fun j => silu (affine (embed a c s wv) w1 b1 j)) w2 b2 d)

/-! ## The whole arrays -/

abbrev SNodes : Shape := ⟨2, ![1000000, 128]⟩
abbrev SGraphs : Shape := ⟨1, ![10000]⟩
abbrev SBatch : Shape := ⟨1, ![1000000]⟩
abbrev SSq : Shape := ⟨2, ![128, 128]⟩
abbrev SVec : Shape := ⟨1, ![128]⟩
abbrev STwo : Shape := ⟨2, ![2, 128]⟩

section
variable (x0 : SNodes.Idx → EReal) (x1 : SGraphs.Idx → EReal) (x2 : SBatch.Idx → BitVec 32) (x3 : SSq.Idx → EReal)
  (x4 : SVec.Idx → EReal) (x5 : STwo.Idx → EReal) (x6 : STwo.Idx → EReal) (x7 : SSq.Idx → EReal) (x8 : SVec.Idx → EReal)
  (x9 : SSq.Idx → EReal) (x10 : SVec.Idx → EReal)

/-- Node n's features. -/
def feat (n : Fin 1000000) : Fin 128 → EReal := fun j => x0 (ix2 n j)
/-- A square matrix, a vector and a two-row matrix by coordinates. -/
def sq (w : SSq.Idx → EReal) : Fin 128 → Fin 128 → EReal := fun j d => w (ix2 j d)
def vec (b : SVec.Idx → EReal) : Fin 128 → EReal := fun d => b (ix1 d)
def two (w : STwo.Idx → EReal) : Fin 2 → Fin 128 → EReal := fun a d => w (ix2 a d)

/-- The charge of the graph node n reads from. -/
def chargeOf (n : Fin 1000000) : EReal := x1 (ix1 (graphOf (x2 (ix1 n))))

/-- Node n's score. -/
def attn (n : Fin 1000000) : EReal := score (feat x0 n) (sq x3) (vec x4) (two x5) (chargeOf x1 x2 n)

/-- Graph g's total: the scores of the nodes whose word names g. -/
def total (g : Fin 10000) : EReal :=
  ∑ n ∈ Finset.univ.filter (fun n : Fin 1000000 => names (x2 (ix1 n)) g), attn x0 x1 x2 x3 x4 x5 n

/-- The result array. -/
def G : SNodes.Idx → EReal := fun i =>
  outRow (feat x0 (i 0)) (attn x0 x1 x2 x3 x4 x5 (i 0)) (chargeOf x1 x2 (i 0)) (total x0 x1 x2 x3 x4 x5 (graphOf (x2 (ix1 (i 0)))))
    (two x6) (sq x7) (vec x8) (sq x9) (vec x10) (i 1)
end

/-! ## Small facts of the extended reals used on both sides -/

theorem zero_sub' (y : EReal) : 0 - y = -y := by rw [sub_eq_add_neg, zero_add]
theorem sub_zero' (y : EReal) : y - 0 = y := by rw [sub_eq_add_neg, neg_zero, add_zero]
/-- The comparison "z differs from z" never holds. -/
theorem cmp_ne_self (p : CmpFPredicate) (hp : p = .one ∨ p = .une) (z : EReal) : Ideal.cmp p z z = 0#1 := by
  rcases hp with rfl | rfl <;> simp [Ideal.cmp]

end Cert.ChargeAttn

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KBlock0.lean ====
/-
  THE FIRST KERNEL'S BLOCK, ROW BY ROW. The block written back has one column; its row r is the score of node r of the
  feature block X with the charge c = C[r, 0] of the charge block. The query is the matrix product X[r, ·] · Wq into the
  zero splat plus the one row bq (the change of format before the product is the identity on the extended reals); with
  p = max(c, 0) and q = max(0 − c, 0) = max(−c, 0), the key is p / max(p, 1) · Wk[0, ·] + q / max(q, 1) · Wk[1, ·], the
  two rows of Wk cut out and spread over the 4096 rows; the sum along the 128 lanes of query · key is a plain finite sum,
  kept as a one-wide column and multiplied by the scale's float word, the same word on both sides. The last step spells
  softplus of z as: if z − 0 differs from itself then z + 0, else max(z, 0) + log1p(exp(0 − |z − 0|)); a value never
  differs from itself, z − 0 = z, 0 − y = −y and |z| = max(z, −z), which is softplus as the specification writes it.
-/
import proofs.«178402_j44057774522738_1_alg».proof.Proof.Gen.KernelIdeal.Frame
import proofs.«178402_j44057774522738_1_alg».proof.Proof.Spec
import proofs.«178402_j44057774522738_1_alg».proof.Proof.LibPlainMatmul
import proofs.«178402_j44057774522738_1_alg».proof.Proof.LibColumn
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

open scoped BigOperators

noncomputable section

namespace Cert.KernelIdeal.Blocks

open Cert.KernelIdeal Cert.KernelIdeal.Gen Cert.ChargeAttn
open Idealize.ShloMosaic Idealize.ShloMosaic.TcCoe Idealize.ShloMosaic.ValueIdx Idealize.SL.Sem

/-- The whole-block rectangles start at the origin. -/
private theorem origin2 : (![0, 0] : Fin 2 → Nat) = fun _ => 0 := funext fun a => by fin_cases a <;> rfl

/-- The absolute value, the exponential and log(1 + ·) of an array, read at an index. -/
private theorem absf_apply' {s : Shape} {φ : FTy} (a : FVec Ideal s φ) (i : s.Idx) : absf a i = max (a i) (-(a i)) := rfl
private theorem exp_apply' {s : Shape} {φ : FTy} (a : FVec Ideal s φ) (i : s.Idx) : exp a i = Ideal.exp (a i) := rfl
private theorem log1p_apply' {s : Shape} {φ : FTy} (a : FVec Ideal s φ) (i : s.Idx) : log1p a i = Ideal.log1p (a i) := rfl

/-- The sum along the lanes of a 4096 × 128 array, at row r, is the sum of the row's 128 entries. -/
private theorem laneSum_apply (v : FVec Ideal S4096x128 .f32) (h : S4096x128.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ d : Fin 128, v (ix2 r d) := by
  refine (Ideal.multiReduction_add_single v _ h hφ hacc (ix1 r)).trans ?_
  exact Finset.sum_congr rfl fun d _ => congrArg v (Cert.LibColumn.lift_last_ix2 h r d)

/-- Row 0 and row 1 of a two-row matrix, cut out as one-row matrices. -/
private theorem row0_apply (w : FVec Ideal S2x128 .f32) (h : S2x128.Slices ![0, 0] S1x128) (d : Fin 128) :
    extractStridedSlice S1x128 ![0, 0] w h (ix2 (0 : Fin 1) d) = w (ix2 (0 : Fin 2) d) :=
  slice2_axis0_apply 0 w h (0 : Fin 1) d (0 : Fin 2) rfl
private theorem row1_apply (w : FVec Ideal S2x128 .f32) (h : S2x128.Slices ![1, 0] S1x128) (d : Fin 128) :
    extractStridedSlice S1x128 ![1, 0] w h (ix2 (0 : Fin 1) d) = w (ix2 (1 : Fin 2) d) :=
  slice2_axis0_apply 1 w h (0 : Fin 1) d (1 : Fin 2) rfl

/-- The first payload at row r: the scaled inner product of the node's query and its graph's key. -/
private theorem pay2_apply (x0 : Vec Ideal S4096x128 .f32) (x1 : Vec Ideal S4096x1 .f32) (x2 : Vec Ideal S128x128 .f32)
    (x3 : Vec Ideal S1x128 .f32) (x4 : Vec Ideal S2x128 .f32) (r : Fin 4096) (u : Fin 1) :
    k0_pay2 (F := Ideal) x0 x1 x2 x3 x4 (ix2 r u)
      = (∑ d : Fin 128, affine (fun j => x0 (ix2 r j)) (fun j d => x2 (ix2 j d)) (fun d => x3 (ix2 (0 : Fin 1) d)) d
            * key (fun a d => x4 (ix2 a d)) (x1 (ix2 r (0 : Fin 1))) d) * scale := by
  unfold k0_pay2
  simp only [mulf_apply, broadcast_apply, Cert.LibColumn.shapeCast_a_a1_apply, shapeCast_self]
  refine (congrArg (· * _) (laneSum_apply _ _ _ _ r)).trans ?_
  refine congrArg (· * _) (Finset.sum_congr rfl fun d _ => ?_)
  simp only [mulf_apply, addf_apply,
    PlainMatmul.matmul_zero_apply dot_S4096x128_S128x128_S4096x128_1_0_0_1_n_n Facts₀.dot_S4096x128_S128x128_S4096x128_1_0_0_1_n_n_wf rfl,
    broadcastTo_1b_ab_apply, Cert.LibColumn.broadcastTo_a1_ab_apply, row0_apply, row1_apply, truncf_apply,
    divf_apply, maximumf_apply, subf_apply, broadcast_apply, affine, key, unitize, ChargeAttn.posPart, ChargeAttn.negPart,
    Ideal.ofBits_def, Ideal.ofBits_zero_f32, Ideal.ofBits_one_f32, zero_sub']

/-- Row r of the block the first kernel writes back is the score of the node in row r of its feature block, with the
    charge in row r of its charge block. -/
theorem out0_5_apply (x0 : Vec Ideal S4096x128 .f32) (x1 : Vec Ideal S4096x1 .f32) (x2 : Vec Ideal S128x128 .f32)
    (x3 : Vec Ideal S1x128 .f32) (x4 : Vec Ideal S2x128 .f32) (r : Fin 4096) (u : Fin 1) :
    out0_5 (F := Ideal) x0 x1 x2 x3 x4 (ix2 r u)
      = score (fun j => x0 (ix2 r j)) (fun j d => x2 (ix2 j d)) (fun d => x3 (ix2 (0 : Fin 1) d)) (fun a d => x4 (ix2 a d))
          (x1 (ix2 r (0 : Fin 1))) := by
  unfold out0_5
  rw [View.canon_unit_zero origin2]
  simp only [View.ld_unit_zero (S := S4096x128) origin2, View.ld_unit_zero (S := S4096x1) origin2,
    View.ld_unit_zero (S := S128x128) origin2, View.ld_unit_zero (S := S1x128) origin2, View.ld_unit_zero (S := S2x128) origin2]
  unfold k0_pay1 k0_pay3
  simp only [select_apply, cmpf_apply, addf_apply, subf_apply, mulf_apply, maximumf_apply, divf_apply, broadcast_apply,
    absf_apply', exp_apply', log1p_apply', pay2_apply]
  simp only [score, softplus, Ideal.cmpf_def, Ideal.ofBits_def, Ideal.ofBits_zero_f32, sub_zero', zero_sub', add_zero,
    cmp_ne_self .one (Or.inl rfl), select_zero]

end Cert.KernelIdeal.Blocks

end
-- ==== Proof.KArray0.lean ====
/-
  The first kernel walks the 1003520 padded rows in 245 blocks of 4096 rows. At block t it reads rows 4096·t … 4096·t + 4095
  of the feature array and of the charge column, and the three weight arrays whole, and writes back the 4096 scores of those
  rows: row r of what it writes is the score of feature row 4096·t + r with the charge of that row. The 245 blocks tile the
  column (245 · 4096 = 1003520; row n lies in block n / 4096), so after the last block row n of the output column is the score
  of row n, whatever the column held before.
-/
import proofs.«178402_j44057774522738_1_alg».proof.Proof.KBlock0
import Idealize.ShloMosaic.Lib.Pipeline.Value

set_option maxRecDepth 16384

open scoped BigOperators

noncomputable section

namespace Cert.KernelIdeal.Arrays

open Cert.KernelIdeal Cert.KernelIdeal.Gen Cert.ChargeAttn
open Idealize.ShloMosaic Idealize.ShloMosaic.TcCoe Idealize.ShloMosaic.ValueIdx Idealize.SL.Sem

variable (V : (c : Dev nD) → (b : Ref sig .tc) → Buf (Elt Ideal) ((c : Thread nD τ).loc b))

/-- The five arrays the first kernel reads, as they stand when it is entered: features, charges, and the three weights. -/
abbrev feats0 (c : Dev nD) : S1003520x128.Idx → EReal := V c main_v0
abbrev charges0 (c : Dev nD) : S1003520x1.Idx → EReal := V c main_v9
abbrev wq0 (c : Dev nD) : S128x128.Idx → EReal := V c main_arg3
abbrev bq0 (c : Dev nD) : S1x128.Idx → EReal := V c main_v10
abbrev wk0 (c : Dev nD) : S2x128.Idx → EReal := V c main_arg5

/-- The column of scores: entry (n, ·) is the score of feature row n with the charge of row n. -/
abbrev scoreColumn0 (c : Dev nD) : S1003520x1.Idx → EReal := fun i =>
  score (fun j => feats0 V c (ix2 (i 0) j)) (fun j d => wq0 V c (ix2 j d)) (fun d => bq0 V c (ix2 (0 : Fin 1) d))
    (fun a d => wk0 V c (ix2 a d)) (charges0 V c (ix2 (i 0) (0 : Fin 1)))

/-- Where each window's block sits at point t: the feature, charge and output blocks are block t of their rows; the weights
    are read whole at every point. -/
theorem block_indices0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The feature block at point t, row r, is row 4096·t + r of the feature array. -/
theorem featBlock0_apply (c : Dev nD) (t : Fin cfg0.N) (r : Fin 4096) (j : Fin 128) (k : Fin 1003520)
    (hk : k.val = t.val * 4096 + r.val) :
    (iblk0 V c 0 t : S4096x128.Idx → EReal) (ix2 r j) = feats0 V c (ix2 k j) := by
  obtain ⟨-, -, e0, e1, -⟩ := block_indices0 t
  unfold iblk0
  rw [View.read_apply]
  show V c main_v0 _ = V c main_v0 _
  congr 1
  funext a
  apply Fin.ext
  match a with
  | ⟨0, _⟩ => show win0_0.index t (0 : Fin 2) * 4096 + 1 * r.val = k.val; rw [e0, hk]; omega
  | ⟨1, _⟩ => show win0_0.index t (1 : Fin 2) * 128 + 1 * j.val = j.val; rw [e1]; omega

/-- The charge block at point t, row r, is row 4096·t + r of the charge column. -/
theorem chargeBlock0_apply (c : Dev nD) (t : Fin cfg0.N) (r : Fin 4096) (k : Fin 1003520)
    (hk : k.val = t.val * 4096 + r.val) :
    (iblk0 V c 1 t : S4096x1.Idx → EReal) (ix2 r (0 : Fin 1)) = charges0 V c (ix2 k (0 : Fin 1)) := by
  obtain ⟨-, -, -, -, e0, e1, -⟩ := block_indices0 t
  unfold iblk0
  rw [View.read_apply]
  show V c main_v9 _ = V c main_v9 _
  congr 1
  funext a
  apply Fin.ext
  match a with
  | ⟨0, _⟩ => show win0_1.index t (0 : Fin 2) * 4096 + 1 * r.val = k.val; rw [e0, hk]; omega
  | ⟨1, _⟩ => show win0_1.index t (1 : Fin 2) * 1 + 1 * (0 : Fin 1).val = (0 : Fin 1).val; rw [e1]; rfl

/-- The three weight windows hold their arrays whole at every point. -/
theorem wqBlock0_apply (c : Dev nD) (t : Fin cfg0.N) (j d : Fin 128) :
    (iblk0 V c 2 t : S128x128.Idx → EReal) (ix2 j d) = wq0 V c (ix2 j d) := by
  obtain ⟨-, -, -, -, -, -, e0, e1, -⟩ := block_indices0 t
  unfold iblk0
  rw [View.read_apply]
  show V c main_arg3 _ = V c main_arg3 _
  congr 1
  funext a
  apply Fin.ext
  match a with
  | ⟨0, _⟩ => show win0_2.index t (0 : Fin 2) * 128 + 1 * j.val = j.val; rw [e0]; omega
  | ⟨1, _⟩ => show win0_2.index t (1 : Fin 2) * 128 + 1 * d.val = d.val; rw [e1]; omega

theorem bqBlock0_apply (c : Dev nD) (t : Fin cfg0.N) (d : Fin 128) :
    (iblk0 V c 3 t : S1x128.Idx → EReal) (ix2 (0 : Fin 1) d) = bq0 V c (ix2 (0 : Fin 1) d) := by
  obtain ⟨-, -, -, -, -, -, -, -, e0, e1, -⟩ := block_indices0 t
  unfold iblk0
  rw [View.read_apply]
  show V c main_v10 _ = V c main_v10 _
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 128 + 1 * d.val = d.val; rw [e1]; omega

theorem wkBlock0_apply (c : Dev nD) (t : Fin cfg0.N) (a' : Fin 2) (d : Fin 128) :
    (iblk0 V c 4 t : S2x128.Idx → EReal) (ix2 a' d) = wk0 V c (ix2 a' d) := by
  obtain ⟨-, -, -, -, -, -, -, -, -, -, e0, e1⟩ := block_indices0 t
  unfold iblk0
  rw [View.read_apply]
  show V c main_arg5 _ = V c main_arg5 _
  congr 1
  funext a
  apply Fin.ext
  match a with
  | ⟨0, _⟩ => show win0_4.index t (0 : Fin 2) * 2 + 1 * a'.val = a'.val; rw [e0]; omega
  | ⟨1, _⟩ => show win0_4.index t (1 : Fin 2) * 128 + 1 * d.val = d.val; rw [e1]; omega

/-- The score depends only on its five arguments. -/
theorem score_congr0 {x x' : Fin 128 → EReal} {a a' : Fin 128 → Fin 128 → EReal} {b b' : Fin 128 → EReal}
    {w w' : Fin 2 → Fin 128 → EReal} {q q' : EReal} (hx : x = x') (ha : a = a') (hb : b = b') (hw : w = w') (hq : q = q') :
    score x a b w q = score x' a' b' w' q' := by
  rw [hx, ha, hb, hw, hq]

/-- What point t writes back is block t of the score column. -/
theorem flushed0_eq (c : Dev nD) (t : Fin cfg0.N) :
    (dat0 (F := Ideal) V c).flushed 5 t = ((cfg0.win 5).blk t).view.read (Elt Ideal) (scoreColumn0 V c) := by
  show (cfg0.win 5).cut (grid0.coords t) ((dat0 V c).after 5 t) = _
  rw [after0_5]
  obtain ⟨e0, e1, -⟩ := block_indices0 t
  funext y
  have hr : (y 0).val < 4096 := (y 0).isLt
  have hu : (y 1).val < 1 := (y 1).isLt
  have hy : (cfg0.win 5).xinj (grid0.coords t) y = (ix2 (⟨(y 0).val, hr⟩ : Fin 4096) (⟨(y 1).val, hu⟩ : Fin 1) : S4096x1.Idx) := by
    funext a
    match a with
    | ⟨0, _⟩ => rfl
    | ⟨1, _⟩ => rfl
  have hk : (((cfg0.win 5).blk t).view.emb y (0 : Fin 2)).val = t.val * 4096 + (⟨(y 0).val, hr⟩ : Fin 4096).val := by
    show win0_5.index t (0 : Fin 2) * 4096 + 1 * (y 0).val = t.val * 4096 + (y 0).val
    rw [e0]; omega
  show out0_5 (F := Ideal) (iblk0 V c 0 t) (iblk0 V c 1 t) (iblk0 V c 2 t) (iblk0 V c 3 t) (iblk0 V c 4 t)
      ((cfg0.win 5).xinj (grid0.coords t) y) = scoreColumn0 V c (((cfg0.win 5).blk t).view.emb y)
  rw [hy]
  refine (Blocks.out0_5_apply (iblk0 V c 0 t) (iblk0 V c 1 t) (iblk0 V c 2 t) (iblk0 V c 3 t) (iblk0 V c 4 t)
    ⟨(y 0).val, hr⟩ ⟨(y 1).val, hu⟩).trans ?_
  exact score_congr0 (funext fun j => featBlock0_apply V c t ⟨(y 0).val, hr⟩ j (((cfg0.win 5).blk t).view.emb y (0 : Fin 2)) hk)
    (funext fun j => funext fun d => wqBlock0_apply V c t j d)
    (funext fun d => bqBlock0_apply V c t d)
    (funext fun a => funext fun d => wkBlock0_apply V c t a d)
    (chargeBlock0_apply V c t ⟨(y 0).val, hr⟩ (((cfg0.win 5).blk t).view.emb y (0 : Fin 2)) hk)

/-- An index of the column is in point t's block iff each coordinate is in the block's range on its axis. -/
theorem mem_block0 (t : Fin cfg0.N) (i : S1003520x1.Idx) :
    i ∈ ((cfg0.win 5).blk t).view.set ↔ ∀ a : Fin 2, win0_5.index t a * S4096x1.size a ≤ (i a).val
      ∧ (i a).val < win0_5.index t a * S4096x1.size a + S4096x1.size a := by
  show i ∈ ((View.whole main_v13).slice (win0_5.rect t)).set ↔ _
  rw [View.set_slice_whole, Rect.mem_set_unit]
  exact Iff.rfl

/-- The blocks tile the column: row n lies in block n / 4096, and 245 · 4096 = 1003520. -/
theorem covered0 (i : S1003520x1.Idx) :
    ∃ t : Fin cfg0.N, (cfg0.win 5).flush t = true ∧ i ∈ ((cfg0.win 5).blk t).view.set := by
  have hi0 : (i 0).val < 1003520 := (i 0).isLt
  have hi1 : (i 1).val < 1 := (i 1).isLt
  have hN : cfg0.N = 245 := N_0
  obtain ⟨t, ht⟩ : ∃ t : Fin cfg0.N, t.val = (i 0).val / 4096 := ⟨⟨(i 0).val / 4096, by rw [hN]; omega⟩, rfl⟩
  obtain ⟨e0, e1, -⟩ := block_indices0 t
  refine ⟨t, flush0_5 t, ?_⟩
  rw [mem_block0]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 1 ≤ (i 1).val ∧ (i 1).val < win0_5.index t (1 : Fin 2) * 1 + 1
    rw [e1]; omega

/-- After the last block the output column is the score column. -/
theorem final0 (c : Dev nD) : (dat0 (F := Ideal) V c).arrAt 5 cfg0.N = scoreColumn0 V c :=
  (dat0 (F := Ideal) V c).arrAt_eq_of_cover 5 (scoreColumn0 V c) (fun t _ => flushed0_eq V c t) covered0

theorem scores (c : Dev nD) (n : Fin 1003520) (u : Fin 1) :
    ((dat0 (F := Ideal) V c).arrAt 5 cfg0.N : S1003520x1.Idx → EReal) (ix2 n u)
      = score (fun j => (V c main_v0 : S1003520x128.Idx → EReal) (ix2 n j))
          (fun j d => (V c main_arg3 : S128x128.Idx → EReal) (ix2 j d))
          (fun d => (V c main_v10 : S1x128.Idx → EReal) (ix2 (0 : Fin 1) d))
          (fun a d => (V c main_arg5 : S2x128.Idx → EReal) (ix2 a d))
          ((V c main_v9 : S1003520x1.Idx → EReal) (ix2 n (0 : Fin 1))) := by
  exact congrFun (final0 V c) (ix2 n u)

end Cert.KernelIdeal.Arrays

end
-- ==== Proof.KBlock1.lean ====
/-
  THE SECOND KERNEL'S BLOCK AT AN INDEX. The kernel handles 4096 nodes at a time: X their features (4096 × 128), and three
  columns, the charge c, the score a and the total s of each node's graph; Wv has two rows, W1 and W2 are 128 × 128,
  b1 and b2 one row each. It writes ONE block, whole:
      X + E + silu(silu(E · W1 + b1) · W2 + b2),      silu z = z · logistic z,
  where E (r, d) = a_r · (max(c_r, 0) · Wv(0, d) + max(0 − c_r, 0) · Wv(1, d)) / s_r.
  Read at entry (r, d): a column spread over the 128 lanes reads its row r, a row spread over the 4096 rows reads its lane
  d, row k of the two-row block is the block at (k, d), 0 − c is −c, and a product accumulated into the zero block is, at
  (r, d), the sum over j of A(r, j) · W(j, d); changing the operands' format changes no value. So E (r, ·) is the
  embedding of node r, each layer is silu of the affine image of the row before it, and the entry is the result row's
  entry d — the same operations in the same order, so no law of the extended reals is needed beyond 0 − c = −c.
-/
import proofs.«178402_j44057774522738_1_alg».proof.Proof.Gen.KernelIdeal.Frame
import proofs.«178402_j44057774522738_1_alg».proof.Proof.Spec
import proofs.«178402_j44057774522738_1_alg».proof.Proof.LibPlainMatmul
import proofs.«178402_j44057774522738_1_alg».proof.Proof.LibColumn
import Idealize.ShloMosaic.Lib.ValueLayout
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Blocks

open Cert.KernelIdeal Cert.KernelIdeal.Gen Cert.ChargeAttn
open Idealize.ShloMosaic Idealize.ShloMosaic.TcCoe Idealize.ShloMosaic.ValueIdx Idealize.SL.Sem

/-- The offsets of a whole block are zero on both axes. -/
theorem zeros2 : (![0, 0] : Fin 2 → Nat) = fun _ => 0 :=
  funext fun a => by match a with | ⟨0, _⟩ => rfl | ⟨1, _⟩ => rfl

/-- Row k of a two-row block, cut out as a one-row block, read at column d. -/
theorem row_of_two (o : Nat) (X : Vec Ideal S2x128 .f32) (h : S2x128.Slices ![o, 0] S1x128) (k : Fin 2) (hk : k.val = o)
    (d : Fin 128) : extractStridedSlice S1x128 ![o, 0] X h (ix2 (0 : Fin 1) d) = X (ix2 k d) :=
  slice2_axis0_apply o X h 0 d k (by rw [hk]; rfl)

/-- The embedding block at (r, d): score · value / total. -/
theorem embed_apply (v2 v4 v6 : Vec Ideal S4096x1 .f32) (v14 : Vec Ideal S2x128 .f32) (r : Fin 4096) (d : Fin 128) :
    k1_pay3 (F := Ideal) v2 v4 v6 v14 (ix2 r d)
      = embed (v4 (ix2 r (0 : Fin 1))) (v2 (ix2 r (0 : Fin 1))) (v6 (ix2 r (0 : Fin 1))) (fun a j => v14 (ix2 a j)) d := by
  unfold k1_pay3
  simp only [divf_apply, mulf_apply, addf_apply, subf_apply, maximumf_apply, broadcast_apply, shapeCast_self,
    Cert.LibColumn.broadcastTo_a1_ab_apply, broadcastTo_1b_ab_apply, row_of_two 0 _ _ 0 rfl, row_of_two 1 _ _ 1 rfl,
    Ideal.ofBits_def, Ideal.ofBits_zero_f32, zero_sub']
  rfl

/-- A · W + b over the block's rows: the matrix product into the zero block plus the one row b spread over the rows. -/
def pre (A : FVec Ideal S4096x128 .f32) (W : Vec Ideal S128x128 .f32) (b : Vec Ideal S1x128 .f32) : FVec Ideal S4096x128 .f32 :=
  addf (matmul dot_S4096x128_S128x128_S4096x128_1_0_0_1_n_n none (truncf .bf16 A bitsLt_bf16_f32) (truncf .bf16 W bitsLt_bf16_f32)
      (constant S4096x128 .f32 0x00000000#32))
    (broadcastTo S4096x128 (shapeCast S1x128 b shapeCasts_S1x128_S1x128) broadcasts_S1x128_S4096x128)

/-- At (r, d) it is the affine image of row r of A at d: the sum over j of A(r, j) · W(j, d), plus b(d). -/
theorem pre_apply (A : FVec Ideal S4096x128 .f32) (W : Vec Ideal S128x128 .f32) (b : Vec Ideal S1x128 .f32) (r : Fin 4096) (d : Fin 128) :
    pre A W b (ix2 r d) = affine (fun j => A (ix2 r j)) (fun j e => W (ix2 j e)) (fun e => b (ix2 (0 : Fin 1) e)) d := by
  unfold pre
  rw [addf_apply, PlainMatmul.matmul_zero_apply dot_S4096x128_S128x128_S4096x128_1_0_0_1_n_n dot_S4096x128_S128x128_S4096x128_1_0_0_1_n_n_wf rfl, shapeCast_self,
    broadcastTo_1b_ab_apply]
  rfl

/-- One layer: z · logistic z for z = A · W + b. -/
def layer (A : FVec Ideal S4096x128 .f32) (W : Vec Ideal S128x128 .f32) (b : Vec Ideal S1x128 .f32) : FVec Ideal S4096x128 .f32 :=
  mulf (pre A W b) (logistic (pre A W b))

/-- At (r, d) the layer is silu of the affine image of row r of A. -/
theorem layer_apply (A : FVec Ideal S4096x128 .f32) (W : Vec Ideal S128x128 .f32) (b : Vec Ideal S1x128 .f32) (r : Fin 4096) (d : Fin 128) :
    layer A W b (ix2 r d) = silu (affine (fun j => A (ix2 r j)) (fun j e => W (ix2 j e)) (fun e => b (ix2 (0 : Fin 1) e)) d) := by
  unfold layer
  rw [mulf_apply]
  show pre A W b (ix2 r d) * Ideal.logistic (pre A W b (ix2 r d)) = _
  rw [pre_apply]
  rfl

/-- The hidden block is the first layer over the embedding block. -/
theorem pay4_eq (v2 v4 v6 : Vec Ideal S4096x1 .f32) (v14 : Vec Ideal S2x128 .f32) (v28 : Vec Ideal S128x128 .f32) (v32 : Vec Ideal S1x128 .f32) :
    k1_pay4 (F := Ideal) v2 v4 v6 v14 v28 v32 = layer (k1_pay3 v2 v4 v6 v14) v28 v32 := rfl

/-- The stored block is (X + E) plus the second layer over the hidden block. -/
theorem pay1_eq (v1 v27 v37 : FVec Ideal S4096x128 .f32) (v38 : Vec Ideal S128x128 .f32) (v42 : Vec Ideal S1x128 .f32) :
    k1_pay1 (F := Ideal) v1 v27 v37 v38 v42 = addf (addf v1 v27) (layer v37 v38 v42) := rfl

/-- Entry (r, d) of the block the second kernel writes back is the result row's entry d for the node in row r: its
    features x0, its charge x1, its score x2, its graph's total x3. -/
theorem out1_9_apply (x0 : Vec Ideal S4096x128 .f32) (x1 x2 x3 : Vec Ideal S4096x1 .f32) (x4 : Vec Ideal S2x128 .f32)
    (x5 : Vec Ideal S128x128 .f32) (x6 : Vec Ideal S1x128 .f32) (x7 : Vec Ideal S128x128 .f32) (x8 : Vec Ideal S1x128 .f32)
    (r : Fin 4096) (d : Fin 128) :
    out1_9 (F := Ideal) x0 x1 x2 x3 x4 x5 x6 x7 x8 (ix2 r d)
      = outRow (fun j => x0 (ix2 r j)) (x2 (ix2 r (0 : Fin 1))) (x1 (ix2 r (0 : Fin 1))) (x3 (ix2 r (0 : Fin 1)))
          (fun a j => x4 (ix2 a j)) (fun j e => x5 (ix2 j e)) (fun e => x6 (ix2 (0 : Fin 1) e))
          (fun j e => x7 (ix2 j e)) (fun e => x8 (ix2 (0 : Fin 1) e)) d := by
  unfold out1_9
  rw [View.canon_unit_zero zeros2]
  simp only [View.ld_unit_zero (S := S4096x128) zeros2, View.ld_unit_zero (S := S4096x1) zeros2, View.ld_unit_zero (S := S2x128) zeros2,
    View.ld_unit_zero (S := S128x128) zeros2, View.ld_unit_zero (S := S1x128) zeros2]
  rw [pay1_eq, pay4_eq, addf_apply, addf_apply, layer_apply]
  simp only [layer_apply, embed_apply]
  unfold k1_pay2
  rw [shapeCast_self]
  rfl

end Cert.KernelIdeal.Blocks

end
-- ==== Proof.KArray1.lean ====
/-
  THE SECOND REGION'S OUTPUT ARRAY, ROW BY ROW.
  The region runs 245 points. Point t reads rows 4096·t … 4096·t + 4095 of the [1003520,128] feature array and of the three
  [1003520,1] columns (charge, score, total), reads the five parameter arrays whole, and writes back the [4096,128] block
  whose entry (r, d) is the result row `outRow` of its row r, at d. Entry (r, ·) of a block sits on array row 4096·t + r, so
  what point t writes back is block t of ONE function of the entry arrays: at (n, d), `outRow` of row n of the features, of
  the three columns at n and of the parameters, at d. Row n lies in the block of point n / 4096, and 245 · 4096 = 1003520, so
  the blocks cover the array: after the last point the array holds that function at every index.
-/
import proofs.«178402_j44057774522738_1_alg».proof.Proof.KBlock1
import Idealize.ShloMosaic.Lib.Pipeline.Value

set_option maxRecDepth 16384

open scoped BigOperators

noncomputable section

namespace Cert.KernelIdeal.Arrays

open Cert.KernelIdeal Cert.KernelIdeal.Gen Cert.ChargeAttn
open Idealize.ShloMosaic Idealize.ShloMosaic.TcCoe Idealize.ShloMosaic.ValueIdx Idealize.SL.Sem

variable (V : (c : Dev nD) → (b : Ref sig .tc) → Buf (Elt Ideal) ((c : Thread nD τ).loc b))

/-- The block index of every window at every point of the grid: the four row-blocked inputs and the output are at block
    (t, 0); the five parameter arrays are at block (0, 0). -/
theorem indexMaps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Entry (r, j) of point t's block of the features is the array's entry (4096·t + r, j). -/
theorem block1_0_apply (c : Dev nD) (t : Fin cfg1.N) (r : Fin 4096) (j : Fin 128) (n : Fin 1003520)
    (hn : n.val = t.val * 4096 + r.val) :
    (iblk1 V c 0 t : Vec Ideal S4096x128 .f32) (ix2 r j) = (V c main_v0 : S1003520x128.Idx → EReal) (ix2 n j) := by
  obtain ⟨e0, e1, -⟩ := indexMaps1 t
  unfold iblk1
  rw [View.read_apply]
  show V c main_v0 _ = V c main_v0 _
  congr 1
  funext a
  apply Fin.ext
  match a with
  | ⟨0, _⟩ => show win1_0.index t (0 : Fin 2) * 4096 + 1 * r.val = n.val; omega
  | ⟨1, _⟩ => show win1_0.index t (1 : Fin 2) * 128 + 1 * j.val = j.val; omega

/-- Entry (r, 0) of point t's block of a column is the column's entry (4096·t + r, 0): the charge, -/
theorem block1_1_apply (c : Dev nD) (t : Fin cfg1.N) (r : Fin 4096) (n : Fin 1003520)
    (hn : n.val = t.val * 4096 + r.val) :
    (iblk1 V c 1 t : Vec Ideal S4096x1 .f32) (ix2 r (0 : Fin 1)) = (V c main_v9 : S1003520x1.Idx → EReal) (ix2 n (0 : Fin 1)) := by
  obtain ⟨-, -, e0, e1, -⟩ := indexMaps1 t
  unfold iblk1
  rw [View.read_apply]
  show V c main_v9 _ = V c main_v9 _
  congr 1
  funext a
  apply Fin.ext
  match a with
  | ⟨0, _⟩ => show win1_1.index t (0 : Fin 2) * 4096 + 1 * r.val = n.val; omega
  | ⟨1, _⟩ => show win1_1.index t (1 : Fin 2) * 1 + 1 * 0 = 0; omega

/-- the score, -/
theorem block1_2_apply (c : Dev nD) (t : Fin cfg1.N) (r : Fin 4096) (n : Fin 1003520)
    (hn : n.val = t.val * 4096 + r.val) :
    (iblk1 V c 2 t : Vec Ideal S4096x1 .f32) (ix2 r (0 : Fin 1)) = (V c main_v18 : S1003520x1.Idx → EReal) (ix2 n (0 : Fin 1)) := by
  obtain ⟨-, -, -, -, e0, e1, -⟩ := indexMaps1 t
  unfold iblk1
  rw [View.read_apply]
  show V c main_v18 _ = V c main_v18 _
  congr 1
  funext a
  apply Fin.ext
  match a with
  | ⟨0, _⟩ => show win1_2.index t (0 : Fin 2) * 4096 + 1 * r.val = n.val; omega
  | ⟨1, _⟩ => show win1_2.index t (1 : Fin 2) * 1 + 1 * 0 = 0; omega

/-- the total. -/
theorem block1_3_apply (c : Dev nD) (t : Fin cfg1.N) (r : Fin 4096) (n : Fin 1003520)
    (hn : n.val = t.val * 4096 + r.val) :
    (iblk1 V c 3 t : Vec Ideal S4096x1 .f32) (ix2 r (0 : Fin 1)) = (V c main_v30 : S1003520x1.Idx → EReal) (ix2 n (0 : Fin 1)) := by
  obtain ⟨-, -, -, -, -, -, e0, e1, -⟩ := indexMaps1 t
  unfold iblk1
  rw [View.read_apply]
  show V c main_v30 _ = V c main_v30 _
  congr 1
  funext a
  apply Fin.ext
  match a with
  | ⟨0, _⟩ => show win1_3.index t (0 : Fin 2) * 4096 + 1 * r.val = n.val; omega
  | ⟨1, _⟩ => show win1_3.index t (1 : Fin 2) * 1 + 1 * 0 = 0; omega

/-- A parameter array's one block is the array. -/
theorem block1_4_apply (c : Dev nD) (t : Fin cfg1.N) (a : Fin 2) (j : Fin 128) :
    (iblk1 V c 4 t : Vec Ideal S2x128 .f32) (ix2 a j) = (V c main_arg6 : S2x128.Idx → EReal) (ix2 a j) := by
  obtain ⟨-, -, -, -, -, -, -, -, e0, e1, -⟩ := indexMaps1 t
  unfold iblk1
  rw [View.read_apply]
  show V c main_arg6 _ = V c main_arg6 _
  congr 1
  funext b
  apply Fin.ext
  match b with
  | ⟨0, _⟩ => show win1_4.index t (0 : Fin 2) * 2 + 1 * a.val = a.val; omega
  | ⟨1, _⟩ => show win1_4.index t (1 : Fin 2) * 128 + 1 * j.val = j.val; omega

theorem block1_5_apply (c : Dev nD) (t : Fin cfg1.N) (a : Fin 128) (j : Fin 128) :
    (iblk1 V c 5 t : Vec Ideal S128x128 .f32) (ix2 a j) = (V c main_arg7 : S128x128.Idx → EReal) (ix2 a j) := by
  obtain ⟨-, -, -, -, -, -, -, -, -, -, e0, e1, -⟩ := indexMaps1 t
  unfold iblk1
  rw [View.read_apply]
  show V c main_arg7 _ = V c main_arg7 _
  congr 1
  funext b
  apply Fin.ext
  match b with
  | ⟨0, _⟩ => show win1_5.index t (0 : Fin 2) * 128 + 1 * a.val = a.val; omega
  | ⟨1, _⟩ => show win1_5.index t (1 : Fin 2) * 128 + 1 * j.val = j.val; omega

theorem block1_6_apply (c : Dev nD) (t : Fin cfg1.N) (j : Fin 128) :
    (iblk1 V c 6 t : Vec Ideal S1x128 .f32) (ix2 (0 : Fin 1) j) = (V c main_v11 : S1x128.Idx → EReal) (ix2 (0 : Fin 1) j) := by
  obtain ⟨-, -, -, -, -, -, -, -, -, -, -, -, e0, e1, -⟩ := indexMaps1 t
  unfold iblk1
  rw [View.read_apply]
  show V c main_v11 _ = V c main_v11 _
  congr 1
  funext b
  apply Fin.ext
  match b with
  | ⟨0, _⟩ => show win1_6.index t (0 : Fin 2) * 1 + 1 * 0 = 0; omega
  | ⟨1, _⟩ => show win1_6.index t (1 : Fin 2) * 128 + 1 * j.val = j.val; omega

theorem block1_7_apply (c : Dev nD) (t : Fin cfg1.N) (a : Fin 128) (j : Fin 128) :
    (iblk1 V c 7 t : Vec Ideal S128x128 .f32) (ix2 a j) = (V c main_arg9 : S128x128.Idx → EReal) (ix2 a j) := by
  obtain ⟨-, -, -, -, -, -, -, -, -, -, -, -, -, -, e0, e1, -⟩ := indexMaps1 t
  unfold iblk1
  rw [View.read_apply]
  show V c main_arg9 _ = V c main_arg9 _
  congr 1
  funext b
  apply Fin.ext
  match b with
  | ⟨0, _⟩ => show win1_7.index t (0 : Fin 2) * 128 + 1 * a.val = a.val; omega
  | ⟨1, _⟩ => show win1_7.index t (1 : Fin 2) * 128 + 1 * j.val = j.val; omega

theorem block1_8_apply (c : Dev nD) (t : Fin cfg1.N) (j : Fin 128) :
    (iblk1 V c 8 t : Vec Ideal S1x128 .f32) (ix2 (0 : Fin 1) j) = (V c main_v12 : S1x128.Idx → EReal) (ix2 (0 : Fin 1) j) := by
  obtain ⟨-, -, -, -, -, -, -, -, -, -, -, -, -, -, -, -, e0, e1, -⟩ := indexMaps1 t
  unfold iblk1
  rw [View.read_apply]
  show V c main_v12 _ = V c main_v12 _
  congr 1
  funext b
  apply Fin.ext
  match b with
  | ⟨0, _⟩ => show win1_8.index t (0 : Fin 2) * 1 + 1 * 0 = 0; omega
  | ⟨1, _⟩ => show win1_8.index t (1 : Fin 2) * 128 + 1 * j.val = j.val; omega

/-- The whole result array as one function of the region's arrays: row by row. -/
abbrev rowsFn1 (c : Dev nD) : S1003520x128.Idx → EReal := fun i =>
  outRow (fun j => (V c main_v0 : S1003520x128.Idx → EReal) (ix2 (i 0) j))
    ((V c main_v18 : S1003520x1.Idx → EReal) (ix2 (i 0) (0 : Fin 1)))
    ((V c main_v9 : S1003520x1.Idx → EReal) (ix2 (i 0) (0 : Fin 1)))
    ((V c main_v30 : S1003520x1.Idx → EReal) (ix2 (i 0) (0 : Fin 1)))
    (fun a j => (V c main_arg6 : S2x128.Idx → EReal) (ix2 a j))
    (fun j e => (V c main_arg7 : S128x128.Idx → EReal) (ix2 j e))
    (fun e => (V c main_v11 : S1x128.Idx → EReal) (ix2 (0 : Fin 1) e))
    (fun j e => (V c main_arg9 : S128x128.Idx → EReal) (ix2 j e))
    (fun e => (V c main_v12 : S1x128.Idx → EReal) (ix2 (0 : Fin 1) e)) (i 1)

/-- One entry of what a point writes back is the result row's entry of the array row it sits on. -/
theorem written1_apply (c : Dev nD) (t : Fin cfg1.N) (y : S4096x128.Idx) (i : S1003520x128.Idx)
    (h0 : (i 0).val = t.val * 4096 + (y 0).val) (h1 : (i 1).val = (y 1).val) :
    out1_9 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) y = rowsFn1 V c i := by
  obtain ⟨r, d, rfl⟩ : ∃ r d, y = ix2 r d := ⟨_, _, eq_ix2 y⟩
  obtain ⟨n, d', rfl⟩ : ∃ n d', i = ix2 n d' := ⟨_, _, eq_ix2 i⟩
  obtain rfl : d' = d := Fin.ext h1
  rw [Blocks.out1_9_apply]
  show outRow _ _ _ _ _ _ _ _ _ d' = outRow _ _ _ _ _ _ _ _ _ d'
  rw [block1_1_apply V c t r n h0, block1_2_apply V c t r n h0, block1_3_apply V c t r n h0]
  simp only [block1_0_apply V c t r _ n h0, block1_4_apply, block1_5_apply, block1_6_apply, block1_7_apply, block1_8_apply]

/-- What point t writes back is block t of the row-by-row function. -/
theorem flushed1_eq (c : Dev nD) (t : Fin cfg1.N) :
    (dat1 (F := Ideal) V c).flushed 9 t = ((cfg1.win 9).blk t).view.read (Elt Ideal) (rowsFn1 V c) := by
  show (cfg1.win 9).cut (grid1.coords t) ((dat1 V c).after 9 t) = _
  rw [after1_9]
  funext y
  rw [View.read_apply]
  obtain ⟨-, -, -, -, -, -, -, -, -, -, -, -, -, -, -, -, -, -, e0, e1⟩ := indexMaps1 t
  refine written1_apply V c t _ _ ?_ ?_
  · show win1_9.index t (0 : Fin 2) * 4096 + 1 * (y 0).val = t.val * 4096 + (y 0).val
    omega
  · show win1_9.index t (1 : Fin 2) * 128 + 1 * (y 1).val = (y 1).val
    omega

/-- An index of the array is in a point's block iff each coordinate is in the block's range on its axis. -/
theorem mem_block1 (t : Fin cfg1.N) (i : S1003520x128.Idx) :
    i ∈ ((cfg1.win 9).blk t).view.set ↔ ∀ a : Fin 2, win1_9.index t a * S4096x128.size a ≤ (i a).val ∧ (i a).val < win1_9.index t a * S4096x128.size a + S4096x128.size a := by
  show i ∈ ((View.whole main_v31).slice (win1_9.rect t)).set ↔ _
  rw [View.set_slice_whole, Rect.mem_set_unit]
  exact Iff.rfl

/-- Row n lies in the block of point n / 4096, and 245 · 4096 = 1003520: the blocks cover the array. -/
theorem blocks_cover1 (i : S1003520x128.Idx) :
    ∃ t : Fin cfg1.N, (cfg1.win 9).flush t = true ∧ i ∈ ((cfg1.win 9).blk t).view.set := by
  have hi0 : (i 0).val < 1003520 := (i 0).isLt
  have hi1 : (i 1).val < 128 := (i 1).isLt
  have hN : cfg1.N = 245 := N_1
  obtain ⟨t, ht⟩ : ∃ t : Fin cfg1.N, t.val = (i 0).val / 4096 := ⟨⟨(i 0).val / 4096, by rw [hN]; omega⟩, rfl⟩
  obtain ⟨-, -, -, -, -, -, -, -, -, -, -, -, -, -, -, -, -, -, e0, e1⟩ := indexMaps1 t
  refine ⟨t, flush1_9 t, ?_⟩
  rw [mem_block1]
  intro a
  match a with
  | ⟨0, _⟩ =>
    show win1_9.index t (0 : Fin 2) * 4096 ≤ (i 0).val ∧ (i 0).val < win1_9.index t (0 : Fin 2) * 4096 + 4096
    omega
  | ⟨1, _⟩ =>
    show win1_9.index t (1 : Fin 2) * 128 ≤ (i 1).val ∧ (i 1).val < win1_9.index t (1 : Fin 2) * 128 + 128
    omega

/-- The array after the region's last point. -/
theorem array1_eq (c : Dev nD) : (dat1 (F := Ideal) V c).arrAt 9 cfg1.N = rowsFn1 V c :=
  (dat1 V c).arrAt_eq_of_cover 9 (rowsFn1 V c) (fun t _ => flushed1_eq V c t) blocks_cover1

/-- After the second region, entry (n, d) of its output array is the result row's entry d of padded row n, whatever the
    region was entered from. -/
theorem rows (c : Dev nD) (n : Fin 1003520) (d : Fin 128) :
    ((dat1 (F := Ideal) V c).arrAt 9 cfg1.N : S1003520x128.Idx → EReal) (ix2 n d)
      = outRow (fun j => (V c main_v0 : S1003520x128.Idx → EReal) (ix2 n j))
          ((V c main_v18 : S1003520x1.Idx → EReal) (ix2 n (0 : Fin 1)))
          ((V c main_v9 : S1003520x1.Idx → EReal) (ix2 n (0 : Fin 1)))
          ((V c main_v30 : S1003520x1.Idx → EReal) (ix2 n (0 : Fin 1)))
          (fun a j => (V c main_arg6 : S2x128.Idx → EReal) (ix2 a j))
          (fun j e => (V c main_arg7 : S128x128.Idx → EReal) (ix2 j e))
          (fun e => (V c main_v11 : S1x128.Idx → EReal) (ix2 (0 : Fin 1) e))
          (fun j e => (V c main_arg9 : S128x128.Idx → EReal) (ix2 j e))
          (fun e => (V c main_v12 : S1x128.Idx → EReal) (ix2 (0 : Fin 1) e)) d := by
  rw [array1_eq]

end Cert.KernelIdeal.Arrays

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KHost0.lean ====
/-
  WHAT THE FIRST REGION FINDS IN ITS BUFFERS, as functions of the launched arguments.
  Five stretches of host operations run before the first region. Each operation writes exactly one buffer, so a buffer
  outside a stretch's list of written buffers holds after the stretch what it held before; an argument is in no list
  and so reaches the region as launched.
  The padded features are the [1000000, 128] features with 3520 rows appended on axis 0: index (n, j) with
  n < 1000000 is 0 + n * 1 on axis 0 and 0 + j * 1 on axis 1, inside the operand, so the pad reads the operand at (n, j).
  The padded words are the 1000000 words with 3520 copies of the scalar 0 appended: index n < 1000000 is inside and
  reads word n; index n >= 1000000 has (n - 0) / 1 >= 1000000, outside, and reads the scalar, the zero word.
  The charge column at (n, 0) is the take's entry n; the take over the table of 10000 charges reads it at the start
  index of row n read signed and clamped into [0, 9999]; the start index is select (w n < 0) (w n + 10000) (w n), the
  wrapped word; so the entry is the table at the graph the word w n reads from.
  A bias vector of 128 read in row-major order as a [1, 128] matrix has, at (0, d), linear position 0 * 128 + d = d:
  entry d of the vector.
-/
import proofs.«178402_j44057774522738_1_alg».proof.Proof.Gen.KernelIdeal.Frame
import proofs.«178402_j44057774522738_1_alg».proof.Proof.Spec
import proofs.«178402_j44057774522738_1_alg».proof.Proof.LibAfter
import proofs.«178402_j44057774522738_1_alg».proof.Proof.LibGatherScatter
import Idealize.ShloMosaic.Lib.KernelVsHost
import Idealize.ShloMosaic.Lib.StableHlo.Run

set_option maxRecDepth 16384

open scoped BigOperators

noncomputable section

namespace Cert.KernelIdeal.HostBefore

open Cert.KernelIdeal Cert.KernelIdeal.Gen Cert.ChargeAttn
open Idealize.ShloMosaic Idealize.ShloMosaic.TcCoe Idealize.ShloMosaic.ValueIdx Idealize.SL.Sem
open Idealize.ShloMosaic.RowOps Idealize.ShloMosaic.StableHlo.Predicate

variable (m : (ℓ : Loc nD τ sig) → Buf (Elt Ideal) ℓ) (ρ : Dev nD → PrngReg) (c : Dev nD)

/-! ## What each stretch writes, and what it therefore leaves alone -/

/-- The buffers the five stretches before the first region write, stretch by stretch. -/
abbrev wr0 : List (Ref sig .tc) := [main_c]
abbrev wr1 : List (Ref sig .tc) := [main_call0_v0, main_v0]
abbrev wr2 : List (Ref sig .tc) := [main_c_0]
abbrev wr3 : List (Ref sig .tc) := [main_call1_v0, main_v1]
abbrev wr4 : List (Ref sig .tc) :=
  [main_c_1, main_v2, main_v3, main_c_2, main_v4, main_v5, main_v6, main_v7, main_v8, main_v9, main_v10, main_v11, main_v12]

/-- Every operation of a stretch writes one buffer, and that buffer is in the stretch's list. -/
local macro "writes_in_list" : tactic =>
  `(tactic| (
    simp only [List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)))

/-- A buffer outside a stretch's list holds after the stretch what it held before. -/
theorem keep0 (V : Valuation τ sig (Elt Ideal)) (r : Ref sig .tc) (h : r ∉ wr0) :
    StableHlo.after hostOps0 V (Proc.devRef .tc r) = V (Proc.devRef .tc r) :=
  StableHlo.after_of_writes_sub (W := wr0) hostOps0 V (by writes_in_list) h
theorem keep1 (V : Valuation τ sig (Elt Ideal)) (r : Ref sig .tc) (h : r ∉ wr1) :
    StableHlo.after hostOps0_1 V (Proc.devRef .tc r) = V (Proc.devRef .tc r) :=
  StableHlo.after_of_writes_sub (W := wr1) hostOps0_1 V (by writes_in_list) h
theorem keep2 (V : Valuation τ sig (Elt Ideal)) (r : Ref sig .tc) (h : r ∉ wr2) :
    StableHlo.after hostOps0_2 V (Proc.devRef .tc r) = V (Proc.devRef .tc r) :=
  StableHlo.after_of_writes_sub (W := wr2) hostOps0_2 V (by writes_in_list) h
theorem keep3 (V : Valuation τ sig (Elt Ideal)) (r : Ref sig .tc) (h : r ∉ wr3) :
    StableHlo.after hostOps0_3 V (Proc.devRef .tc r) = V (Proc.devRef .tc r) :=
  StableHlo.after_of_writes_sub (W := wr3) hostOps0_3 V (by writes_in_list) h
theorem keep4 (V : Valuation τ sig (Elt Ideal)) (r : Ref sig .tc) (h : r ∉ wr4) :
    StableHlo.after hostOps0_4 V (Proc.devRef .tc r) = V (Proc.devRef .tc r) :=
  StableHlo.after_of_writes_sub (W := wr4) hostOps0_4 V (by writes_in_list) h

/-- A buffer no stretch writes holds at each boundary what the launch put there. -/
theorem W1_launch (r : Ref sig .tc) (h0 : r ∉ wr0) :
    W1 m ρ c (Proc.devRef .tc r) = m ((c : Thread nD τ).loc r) :=
  keep0 _ r h0
theorem W3_launch (r : Ref sig .tc) (h0 : r ∉ wr0) (h1 : r ∉ wr1) (h2 : r ∉ wr2) :
    W3 m ρ c (Proc.devRef .tc r) = m ((c : Thread nD τ).loc r) :=
  (keep2 _ r h2).trans ((keep1 _ r h1).trans (keep0 _ r h0))
theorem W4_launch (r : Ref sig .tc) (h0 : r ∉ wr0) (h1 : r ∉ wr1) (h2 : r ∉ wr2) (h3 : r ∉ wr3) :
    W4 m ρ c (Proc.devRef .tc r) = m ((c : Thread nD τ).loc r) :=
  (keep3 _ r h3).trans (W3_launch m ρ c r h0 h1 h2)
theorem W5_launch (r : Ref sig .tc) (h0 : r ∉ wr0) (h1 : r ∉ wr1) (h2 : r ∉ wr2) (h3 : r ∉ wr3) (h4 : r ∉ wr4) :
    W5 m ρ c (Proc.devRef .tc r) = m ((c : Thread nD τ).loc r) :=
  (keep4 _ r h4).trans (W4_launch m ρ c r h0 h1 h2 h3)

/-! ## What a stretch leaves in a buffer it writes, from any contents at its entry -/

/-- The feature pad: the operand padded with the converted scalar. -/
theorem s1_v0 (V : Valuation τ sig (Elt Ideal)) :
    (StableHlo.after hostOps0_1 V (Proc.devRef .tc main_v0) : S1003520x128.Idx → EReal)
      = pad (s := S1000000x128) (α := EReal) S1003520x128 ![0, 0] ![3520, 0] ![0, 0] (V (Proc.devRef .tc main_arg0))
          (u := S_) (sitofp (F := Ideal) (s := S_) (w := 32) .f32 (V (Proc.devRef .tc main_c)))
          pads_S1000000x128_S1003520x128_035200_000 h_S_ := by
  open StableHlo in after_results
  rfl

/-- The scalar the word pad pads with is the zero word. -/
theorem s2_c0 (V : Valuation τ sig (Elt Ideal)) :
    (StableHlo.after hostOps0_2 V (Proc.devRef .tc main_c_0) : S_.Idx → BitVec 32) = constantI S_ 32 0#32 := by
  open StableHlo in after_results

/-- The word pad: the operand padded with the scalar as it stands. -/
theorem s3_v1 (V : Valuation τ sig (Elt Ideal)) :
    (StableHlo.after hostOps0_3 V (Proc.devRef .tc main_v1) : S1003520.Idx → BitVec 32)
      = pad S1003520 ![0] ![3520] ![0] (V (Proc.devRef .tc main_arg2) : S1000000.Idx → BitVec 32)
          (V (Proc.devRef .tc main_c_0) : S_.Idx → BitVec 32) pads_S1000000_S1003520_035200 h_S_ := by
  open StableHlo in after_results
  rfl

/-- The charge column: the table taken at the wrapped words, as a one-column matrix. -/
theorem s4_v9 (V : Valuation τ sig (Elt Ideal)) :
    (StableHlo.after hostOps0_4 V (Proc.devRef .tc main_v9) : S1003520x1.Idx → EReal)
      = broadcastInDim S1003520x1 ![0] bcast_S1003520_S1003520x1_0
          (Host.gather gather_S10000_S1003520x1_S1003520_n_0_n_n_0_1_1 (V (Proc.devRef .tc main_arg1) : S10000.Idx → EReal)
            (broadcastInDim S1003520x1 ![0] bcast_S1003520_S1003520x1_0
              (select
                (cmpi .slt (V (Proc.devRef .tc main_v1) : S1003520.Idx → BitVec 32)
                  (broadcastInDim S1003520 ![] bcast_S_S1003520 (constantI S_ 32 0#32)))
                (addi (V (Proc.devRef .tc main_v1) : S1003520.Idx → BitVec 32)
                  (broadcastInDim S1003520 ![] bcast_S_S1003520 (constantI S_ 32 10000#32)))
                (V (Proc.devRef .tc main_v1) : S1003520.Idx → BitVec 32)))) := by
  open StableHlo in after_results

/-- The three one-row matrices: each a vector of 128 read in row-major order as [1, 128]. -/
theorem s4_v10 (V : Valuation τ sig (Elt Ideal)) :
    (StableHlo.after hostOps0_4 V (Proc.devRef .tc main_v10) : S1x128.Idx → EReal)
      = shapeCast S1x128 (V (Proc.devRef .tc main_arg4) : S128.Idx → EReal) shapeCasts_S128_S1x128 := by
  open StableHlo in after_results
  rfl
theorem s4_v11 (V : Valuation τ sig (Elt Ideal)) :
    (StableHlo.after hostOps0_4 V (Proc.devRef .tc main_v11) : S1x128.Idx → EReal)
      = shapeCast S1x128 (V (Proc.devRef .tc main_arg8) : S128.Idx → EReal) shapeCasts_S128_S1x128 := by
  open StableHlo in after_results
  rfl
theorem s4_v12 (V : Valuation τ sig (Elt Ideal)) :
    (StableHlo.after hostOps0_4 V (Proc.devRef .tc main_v12) : S1x128.Idx → EReal)
      = shapeCast S1x128 (V (Proc.devRef .tc main_arg10) : S128.Idx → EReal) shapeCasts_S128_S1x128 := by
  open StableHlo in after_results
  rfl

/-- A vector of 128 read as a [1, 128] matrix has entry d of the vector at (0, d). -/
theorem row_of_vec (x : S128.Idx → EReal) (u : Fin 1) (d : Fin 128) :
    shapeCast S1x128 x shapeCasts_S128_S1x128 (ix2 u d) = x (ix1 d) :=
  shapeCast_apply x _ _ _ (by
    have hu : u.val = 0 := by omega
    rw [Shape.rowMajor_val_two, Shape.rowMajor_val_one]
    show d.val = u.val * 128 + d.val
    rw [hu, Nat.zero_mul, Nat.zero_add])

/-! ## The buffers the first region reads, as whole arrays over the launch contents -/

/-- The padded features: the launched features padded by 3520 rows at the high end. -/
theorem v0_arr :
    (V5 m ρ c main_v0 : S1003520x128.Idx → EReal)
      = pad (s := S1000000x128) (α := EReal) S1003520x128 ![0, 0] ![3520, 0] ![0, 0] (m ((c : Thread nD τ).loc main_arg0))
          (u := S_) (sitofp (F := Ideal) (s := S_) (w := 32) .f32 (W1 m ρ c (Proc.devRef .tc main_c)))
          pads_S1000000x128_S1003520x128_035200_000 h_S_ := by
  refine (keep4 _ main_v0 (by decide)).trans ((keep3 _ main_v0 (by decide)).trans ((keep2 _ main_v0 (by decide)).trans ?_))
  refine (s1_v0 (W1 m ρ c)).trans ?_
  rw [W1_launch m ρ c main_arg0 (by decide)]

/-- The padded words: the launched words padded by 3520 zero words at the high end. -/
theorem v1_arr :
    (V5 m ρ c main_v1 : S1003520.Idx → BitVec 32)
      = pad S1003520 ![0] ![3520] ![0] ((m ((c : Thread nD τ).loc main_arg2)) : S1000000.Idx → BitVec 32)
          (constantI S_ 32 0#32) pads_S1000000_S1003520_035200 h_S_ := by
  refine (keep4 _ main_v1 (by decide)).trans ?_
  refine (s3_v1 (W3 m ρ c)).trans ?_
  rw [W3_launch m ρ c main_arg2 (by decide) (by decide) (by decide)]
  rw [show (W3 m ρ c (Proc.devRef .tc main_c_0) : S_.Idx → BitVec 32) = constantI S_ 32 0#32 from s2_c0 (W2 m ρ c)]

/-- The padded features hold a real node's features in its row. -/
theorem v0_real (n : Fin 1000000) (j : Fin 128) :
    (V5 m ρ c main_v0 : S1003520x128.Idx → EReal) (ix2 (padIdx n) j) = ((m ((c : Thread nD τ).loc main_arg0)) : S1000000x128.Idx → EReal) (ix2 n j) := by
  rw [v0_arr m ρ c]
  exact pad_apply_of_inside _ _ _ _ _ _ _ (ix2 (padIdx n) j) (ix2 n j) (fun a => match a with
    | ⟨0, _⟩ => by show n.val = 0 + n.val * (0 + 1); omega
    | ⟨1, _⟩ => by show j.val = 0 + j.val * (0 + 1); omega)

/-- The padded words hold a real node's word in its row, -/
theorem v1_real (n : Fin 1000000) :
    (V5 m ρ c main_v1 : S1003520.Idx → BitVec 32) (ix1 (padIdx n)) = ((m ((c : Thread nD τ).loc main_arg2)) : S1000000.Idx → BitVec 32) (ix1 n) := by
  rw [v1_arr m ρ c]
  exact pad_apply_of_inside _ _ _ _ _ _ _ (ix1 (padIdx n)) (ix1 n) (fun a => by
    have ha : a = 0 := Subsingleton.elim _ _
    subst ha
    show n.val = 0 + n.val * (0 + 1); omega)

/-- and the zero word beyond the last node. -/
theorem v1_tail (n : Fin 1003520) (h : 1000000 ≤ n.val) :
    (V5 m ρ c main_v1 : S1003520.Idx → BitVec 32) (ix1 n) = 0#32 := by
  rw [v1_arr m ρ c]
  exact pad_apply_of_not_inside _ _ _ _ _ _ _ (ix1 n) (0 : Fin 1) (fun hin => by
    have e : (n.val - 0) / (0 + 1) < 1000000 := hin.2.2
    omega)

/-- One entry of the charge column over any table x and any words w: the column's entry (n, 0) is the take's entry n,
    the take reads the table at the start index of row n read signed and clamped, and that start index is the word
    w n with 10000 added when it is negative — the wrapped word. -/
theorem charge_col_apply (x : S10000.Idx → EReal) (w : S1003520.Idx → BitVec 32) (n : Fin 1003520) (u : Fin 1) :
    broadcastInDim S1003520x1 ![0] bcast_S1003520_S1003520x1_0
      (Host.gather gather_S10000_S1003520x1_S1003520_n_0_n_n_0_1_1 x
        (broadcastInDim S1003520x1 ![0] bcast_S1003520_S1003520x1_0
          (select (cmpi .slt w (broadcastInDim S1003520 ![] bcast_S_S1003520 (constantI S_ 32 0#32)))
            (addi w (broadcastInDim S1003520 ![] bcast_S_S1003520 (constantI S_ 32 10000#32))) w))) (ix2 n u)
      = x (ix1 (graphOf (w (ix1 n)))) := by
  have hu : u = 0 := Subsingleton.elim _ _
  subst hu
  have hix : (ix2 n (0 : Fin 1) : S1003520x1.Idx) = ixP n := by
    funext a; match a with | ⟨0, _⟩ => rfl | ⟨1, _⟩ => rfl
  rw [hix, bcast_col1, ofFin_eq_ix1, gather_row1 _ rfl rfl rfl rfl _ _ n (by decide)]
  refine congrArg (fun g : Fin 10000 => x (ix1 g)) (Fin.ext ?_)
  show min ((broadcastInDim S1003520x1 ![0] bcast_S1003520_S1003520x1_0
      (select (cmpi .slt w (broadcastInDim S1003520 ![] bcast_S_S1003520 (constantI S_ 32 0#32)))
        (addi w (broadcastInDim S1003520 ![] bcast_S_S1003520 (constantI S_ 32 10000#32))) w)) (ixP n)).toInt.toNat (10000 - 1)
    = min (wrapWord (w (ix1 n))).toInt.toNat (10000 - 1)
  rw [bcast_col1, ofFin_eq_ix1]
  rfl

/-- Row n of the charge column is the charge of the graph row n's word reads from. -/
theorem v9_eq (n : Fin 1003520) (u : Fin 1) :
    (V5 m ρ c main_v9 : S1003520x1.Idx → EReal) (ix2 n u)
      = ((m ((c : Thread nD τ).loc main_arg1)) : S10000.Idx → EReal) (ix1 (graphOf ((V5 m ρ c main_v1 : S1003520.Idx → BitVec 32) (ix1 n)))) := by
  rw [show (V5 m ρ c main_v1 : S1003520.Idx → BitVec 32) = W4 m ρ c (Proc.devRef .tc main_v1) from keep4 _ main_v1 (by decide),
    show (V5 m ρ c main_v9 : S1003520x1.Idx → EReal) = _ from s4_v9 (W4 m ρ c),
    W4_launch m ρ c main_arg1 (by decide) (by decide) (by decide) (by decide)]
  exact charge_col_apply _ _ n u

/-- The three biases as one-row matrices. -/
theorem v10_eq (u : Fin 1) (d : Fin 128) :
    (V5 m ρ c main_v10 : S1x128.Idx → EReal) (ix2 u d) = ((m ((c : Thread nD τ).loc main_arg4)) : S128.Idx → EReal) (ix1 d) := by
  rw [show (V5 m ρ c main_v10 : S1x128.Idx → EReal) = _ from s4_v10 (W4 m ρ c),
    W4_launch m ρ c main_arg4 (by decide) (by decide) (by decide) (by decide)]
  exact row_of_vec _ u d
theorem v11_eq (u : Fin 1) (d : Fin 128) :
    (V5 m ρ c main_v11 : S1x128.Idx → EReal) (ix2 u d) = ((m ((c : Thread nD τ).loc main_arg8)) : S128.Idx → EReal) (ix1 d) := by
  rw [show (V5 m ρ c main_v11 : S1x128.Idx → EReal) = _ from s4_v11 (W4 m ρ c),
    W4_launch m ρ c main_arg8 (by decide) (by decide) (by decide) (by decide)]
  exact row_of_vec _ u d
theorem v12_eq (u : Fin 1) (d : Fin 128) :
    (V5 m ρ c main_v12 : S1x128.Idx → EReal) (ix2 u d) = ((m ((c : Thread nD τ).loc main_arg10)) : S128.Idx → EReal) (ix1 d) := by
  rw [show (V5 m ρ c main_v12 : S1x128.Idx → EReal) = _ from s4_v12 (W4 m ρ c),
    W4_launch m ρ c main_arg10 (by decide) (by decide) (by decide) (by decide)]
  exact row_of_vec _ u d

/-- The weight arguments reach the first region as launched. -/
theorem arg3_eq : V5 m ρ c main_arg3 = (m ((c : Thread nD τ).loc main_arg3)) :=
  W5_launch m ρ c main_arg3 (by decide) (by decide) (by decide) (by decide) (by decide)
theorem arg5_eq : V5 m ρ c main_arg5 = (m ((c : Thread nD τ).loc main_arg5)) :=
  W5_launch m ρ c main_arg5 (by decide) (by decide) (by decide) (by decide) (by decide)
theorem arg6_eq : V5 m ρ c main_arg6 = (m ((c : Thread nD τ).loc main_arg6)) :=
  W5_launch m ρ c main_arg6 (by decide) (by decide) (by decide) (by decide) (by decide)
theorem arg7_eq : V5 m ρ c main_arg7 = (m ((c : Thread nD τ).loc main_arg7)) :=
  W5_launch m ρ c main_arg7 (by decide) (by decide) (by decide) (by decide) (by decide)
theorem arg9_eq : V5 m ρ c main_arg9 = (m ((c : Thread nD τ).loc main_arg9)) :=
  W5_launch m ρ c main_arg9 (by decide) (by decide) (by decide) (by decide) (by decide)

end Cert.KernelIdeal.HostBefore

end
-- ==== Proof.KHost1.lean ====
/-
  BETWEEN THE TWO REGIONS, AND AFTER THEM. Write N = 1003520 for the padded number of rows (245 blocks of 4096) and
  1000000 for the number of nodes.
  * Unchanged. The feature rows padded to N, the one-wide column that holds for each row the entry of the 10000-entry
    argument table at the row's word (wrapped, read signed and clamped), the padded words, three argument arrays and two
    argument vectors laid out as one-row matrices are written before the first region and by nothing after it: the
    second region finds them as the first did.
  * The masked scores. The first region leaves a score in every padded row; the mask "row number < 1000000" (the row
    number as a 32-bit word: it is below 2^31, so the signed comparison is the comparison of the numbers) keeps the score
    on a real row and puts the float zero on a padding row.
  * The totals column. The masked scores are added, starting from a table of 10000 zeros, at the table row each padded
    word names when read signed — a word that is negative or at least 10000 adds nowhere — so entry g of the table is
    0 + the sum of the masked scores of the rows e whose word is exactly g. Row n then reads the table at its own word
    wrapped once (10000 added to a negative word), read signed and clamped into [0, 9999]: the graph the node reads from.
    Hence row n of the column is the sum of the masked scores over the rows whose word names that graph.
  * The result. The last operation keeps the leading 1000000 rows of the second region's output: entry (n, d) of the
    result is entry (n, d) of that output, n taken as a padded row.
-/
import proofs.«178402_j44057774522738_1_alg».proof.Proof.Gen.KernelIdeal.Frame
import proofs.«178402_j44057774522738_1_alg».proof.Proof.Spec
import proofs.«178402_j44057774522738_1_alg».proof.Proof.LibAfter
import proofs.«178402_j44057774522738_1_alg».proof.Proof.LibGatherScatter
import Idealize.ShloMosaic.Lib.KernelVsHost
import Idealize.ShloMosaic.Lib.IdealHost
import Idealize.ShloMosaic.Lib.ValueIdx
import Idealize.ShloMosaic.Lib.Pipeline.Value
import Idealize.ShloMosaic.Lib.StableHlo.Run
import Idealize.ShloMosaic.Lib.StableHlo.Predicate
import Idealize.ShloMosaic.PureOps.Ideal
import Idealize.ShloMosaic.PureOps.Ideal.Laws

set_option maxRecDepth 16384

open scoped BigOperators

noncomputable section

namespace Cert.KernelIdeal.HostBetween

open Cert.KernelIdeal Cert.KernelIdeal.Gen Cert.ChargeAttn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
/-- A stretch of host operations none of which writes the buffer leaves it as it was. -/
local macro "not_written " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! What the second region reads unchanged from the first region's entry. -/
theorem keep_main_v0 : V9 m ρ c main_v0 = V5 m ρ c main_v0 :=
  calc W9 m ρ c (Proc.devRef .tc main_v0)
    _ = W8 m ρ c (Proc.devRef .tc main_v0) := by not_written hostOps1_2
    _ = W7 m ρ c (Proc.devRef .tc main_v0) := by not_written hostOps1_1
    _ = W6 m ρ c (Proc.devRef .tc main_v0) := by not_written hostOps1
    _ = W5 m ρ c (Proc.devRef .tc main_v0) :=
      (W6_arr m ρ c 0).trans (((dat0 (V5 m ρ) c).arrAt_in 0 rfl _).trans (A_eq0 (V5 m ρ) c 0))
theorem keep_main_v9 : V9 m ρ c main_v9 = V5 m ρ c main_v9 :=
  calc W9 m ρ c (Proc.devRef .tc main_v9)
    _ = W8 m ρ c (Proc.devRef .tc main_v9) := by not_written hostOps1_2
    _ = W7 m ρ c (Proc.devRef .tc main_v9) := by not_written hostOps1_1
    _ = W6 m ρ c (Proc.devRef .tc main_v9) := by not_written hostOps1
    _ = W5 m ρ c (Proc.devRef .tc main_v9) :=
      (W6_arr m ρ c 1).trans (((dat0 (V5 m ρ) c).arrAt_in 1 rfl _).trans (A_eq0 (V5 m ρ) c 1))
theorem keep_main_v1 : V9 m ρ c main_v1 = V5 m ρ c main_v1 :=
  calc W9 m ρ c (Proc.devRef .tc main_v1)
    _ = W8 m ρ c (Proc.devRef .tc main_v1) := by not_written hostOps1_2
    _ = W7 m ρ c (Proc.devRef .tc main_v1) := by not_written hostOps1_1
    _ = W6 m ρ c (Proc.devRef .tc main_v1) := by not_written hostOps1
    _ = W5 m ρ c (Proc.devRef .tc main_v1) := W6_of_ne m ρ c main_v1 (by decide)
theorem keep_main_arg6 : V9 m ρ c main_arg6 = V5 m ρ c main_arg6 :=
  calc W9 m ρ c (Proc.devRef .tc main_arg6)
    _ = W8 m ρ c (Proc.devRef .tc main_arg6) := by not_written hostOps1_2
    _ = W7 m ρ c (Proc.devRef .tc main_arg6) := by not_written hostOps1_1
    _ = W6 m ρ c (Proc.devRef .tc main_arg6) := by not_written hostOps1
    _ = W5 m ρ c (Proc.devRef .tc main_arg6) := W6_of_ne m ρ c main_arg6 (by decide)
theorem keep_main_arg7 : V9 m ρ c main_arg7 = V5 m ρ c main_arg7 :=
  calc W9 m ρ c (Proc.devRef .tc main_arg7)
    _ = W8 m ρ c (Proc.devRef .tc main_arg7) := by not_written hostOps1_2
    _ = W7 m ρ c (Proc.devRef .tc main_arg7) := by not_written hostOps1_1
    _ = W6 m ρ c (Proc.devRef .tc main_arg7) := by not_written hostOps1
    _ = W5 m ρ c (Proc.devRef .tc main_arg7) := W6_of_ne m ρ c main_arg7 (by decide)
theorem keep_main_v11 : V9 m ρ c main_v11 = V5 m ρ c main_v11 :=
  calc W9 m ρ c (Proc.devRef .tc main_v11)
    _ = W8 m ρ c (Proc.devRef .tc main_v11) := by not_written hostOps1_2
    _ = W7 m ρ c (Proc.devRef .tc main_v11) := by not_written hostOps1_1
    _ = W6 m ρ c (Proc.devRef .tc main_v11) := by not_written hostOps1
    _ = W5 m ρ c (Proc.devRef .tc main_v11) := W6_of_ne m ρ c main_v11 (by decide)
theorem keep_main_arg9 : V9 m ρ c main_arg9 = V5 m ρ c main_arg9 :=
  calc W9 m ρ c (Proc.devRef .tc main_arg9)
    _ = W8 m ρ c (Proc.devRef .tc main_arg9) := by not_written hostOps1_2
    _ = W7 m ρ c (Proc.devRef .tc main_arg9) := by not_written hostOps1_1
    _ = W6 m ρ c (Proc.devRef .tc main_arg9) := by not_written hostOps1
    _ = W5 m ρ c (Proc.devRef .tc main_arg9) := W6_of_ne m ρ c main_arg9 (by decide)
theorem keep_main_v12 : V9 m ρ c main_v12 = V5 m ρ c main_v12 :=
  calc W9 m ρ c (Proc.devRef .tc main_v12)
    _ = W8 m ρ c (Proc.devRef .tc main_v12) := by not_written hostOps1_2
    _ = W7 m ρ c (Proc.devRef .tc main_v12) := by not_written hostOps1_1
    _ = W6 m ρ c (Proc.devRef .tc main_v12) := by not_written hostOps1
    _ = W5 m ρ c (Proc.devRef .tc main_v12) := W6_of_ne m ρ c main_v12 (by decide)

/-! What one stretch of host operations leaves in a buffer it writes, as a function of the contents X it starts from. -/
section Stretch
variable (X : Valuation τ sig (Elt Ideal))

/-- The masked scores are the select, by the mask, between the scores and the zero column. -/
theorem where_v18 :
    (StableHlo.after (hostOps1_1 (F := Ideal)) X (Proc.devRef .tc main_v18) : S1003520x1.Idx → EReal)
      = select (X (Proc.devRef .tc main_v17) : S1003520x1.Idx → BitVec 1) (X (Proc.devRef .tc main_v13) : S1003520x1.Idx → EReal)
          (broadcastInDim S1003520x1 ![] bcast_S_S1003520x1 (X (Proc.devRef .tc main_cst) : S_.Idx → EReal)) := by
  after_results; rfl

/-- The mask compares the row number, as a column, with the number of nodes. -/
theorem mask_v17 :
    (StableHlo.after (hostOps1 (F := Ideal)) X (Proc.devRef .tc main_v17) : S1003520x1.Idx → BitVec 1)
      = cmpi .slt (broadcastInDim S1003520x1 ![0] bcast_S1003520_S1003520x1_0 (iotaInDim S1003520 32 0))
          (broadcastInDim S1003520x1 ![] bcast_S_S1003520x1 (constantI S_ 32 1000000#32)) := by
  after_results

/-- The fill value is the zero word. -/
theorem fill_cst :
    (StableHlo.after (hostOps1 (F := Ideal)) X (Proc.devRef .tc main_cst) : S_.Idx → EReal)
      = constant (F := Ideal) S_ .f32 0x00000000#32 := by
  after_results

end Stretch

section Stretch2
variable (X : Valuation τ sig (Elt Ideal))

/-- The masked scores as a vector, the padded words as a column, the wrapped words as a column. -/
abbrev scoreVec (s : S1003520x1.Idx → EReal) : S1003520.Idx → EReal := shapeCast S1003520 s shapeCasts_S1003520x1_S1003520
abbrev wordCol (w : S1003520.Idx → BitVec 32) : S1003520x1.Idx → BitVec 32 :=
  broadcastInDim S1003520x1 ![0] bcast_S1003520_S1003520x1_0 w
abbrev wrapVec (w : S1003520.Idx → BitVec 32) : S1003520.Idx → BitVec 32 :=
  select (cmpi .slt w (broadcastInDim S1003520 ![] bcast_S_S1003520 (constantI S_ 32 0#32)))
    (addi w (broadcastInDim S1003520 ![] bcast_S_S1003520 (constantI S_ 32 10000#32))) w
/-- The table of the graphs' totals: the scores added, from zero, at the rows their words name. -/
abbrev totals (s : S1003520x1.Idx → EReal) (w : S1003520.Idx → BitVec 32) : S10000.Idx → EReal :=
  Host.scatterAdd (F := Ideal) scatter_S10000_S1003520x1_S1003520_n_0_0_1
    (broadcastInDim S10000 ![] bcast_S_S10000 (constant (F := Ideal) S_ .f32 0x00000000#32)) (wordCol w) (scoreVec s)

/-- The totals column: each row reads the table of totals at its wrapped word. -/
theorem totals_v30 :
    (StableHlo.after (hostOps1_2 (F := Ideal)) X (Proc.devRef .tc main_v30) : S1003520x1.Idx → EReal)
      = broadcastInDim S1003520x1 ![0] bcast_S1003520_S1003520x1_0
          (Host.gather gather_S10000_S1003520x1_S1003520_n_0_n_n_0_1_1
            (totals (X (Proc.devRef .tc main_v18) : S1003520x1.Idx → EReal) (X (Proc.devRef .tc main_v1) : S1003520.Idx → BitVec 32))
            (wordCol (wrapVec (X (Proc.devRef .tc main_v1) : S1003520.Idx → BitVec 32)))) := by
  after_results; try rfl

end Stretch2

/-! Reads at a row. -/

/-- Row n of a vector laid out as a one-wide column. -/
theorem column_apply {α : Type} (v : S1003520.Idx → α) (n : Fin 1003520) (u : Fin 1) :
    broadcastInDim S1003520x1 ![0] bcast_S1003520_S1003520x1_0 v (ix2 n u) = v (ix1 n) :=
  broadcastInDim_apply _ _ v (ix2 n u) (ix1 n) fun a => by
    match a with
    | ⟨0, _⟩ => rfl

/-- Row n of a one-wide column, written by its two coordinates. -/
theorem ixP_eq (n : Fin 1003520) : StableHlo.Predicate.ixP n = ix2 n (0 : Fin 1) := by
  funext a
  match a with
  | ⟨0, _⟩ => rfl
  | ⟨1, _⟩ => rfl

/-- A one-wide column flattened to a vector reads, at row e, the column's entry (e, 0). -/
theorem scoreVec_apply (s : S1003520x1.Idx → EReal) (e : Fin 1003520) : scoreVec s (ix1 e) = s (ix2 e (0 : Fin 1)) :=
  shapeCast_apply s _ (ix1 e) (ix2 e (0 : Fin 1)) (by
    rw [Shape.rowMajor_val_two, Shape.rowMajor_val_one]
    show e.val * 1 + 0 = e.val
    omega)

/-- Row n of the wrapped words is row n's word, wrapped. -/
theorem wrapVec_apply (w : S1003520.Idx → BitVec 32) (n : Fin 1003520) : wrapVec w (ix1 n) = wrapWord (w (ix1 n)) := by
  show Scalar.select (IntOp.cmpi .slt (w (ix1 n)) (broadcastInDim S1003520 ![] bcast_S_S1003520 (constantI S_ 32 0#32) (ix1 n)))
     (IntOp.addi (w (ix1 n)) (broadcastInDim S1003520 ![] bcast_S_S1003520 (constantI S_ 32 10000#32) (ix1 n))) (w (ix1 n)) = _
  rw [broadcastInDim_scalar_apply, broadcastInDim_scalar_apply]
  rfl

/-- Graph g's total: zero plus the scores of the rows whose word, read signed, is exactly g. -/
theorem totals_apply (s : S1003520x1.Idx → EReal) (w : S1003520.Idx → BitVec 32) (g : Fin 10000) :
    totals s w (ix1 g) = ∑ e ∈ Finset.univ.filter (fun e : Fin 1003520 => names (w (ix1 e)) g), s (ix2 e (0 : Fin 1)) := by
  have hidx : ∀ e : Fin 1003520, wordCol w (StableHlo.Predicate.ixP e) = w (ix1 e) := fun e => by
    rw [ixP_eq]; exact column_apply w e 0
  rw [totals, Host.scatterAdd, Ideal.hostScatterAdd_def,
    RowOps.scatterAdd_row1 scatter_S10000_S1003520x1_S1003520_n_0_0_1 rfl rfl rfl rfl,
    broadcastInDim_scalar_apply, constant_apply, Ideal.ofBits_zero_f32, zero_add]
  refine Finset.sum_congr (Finset.filter_congr fun e _ => ?_) (fun e _ => scoreVec_apply s e)
  show (wordCol w (StableHlo.Predicate.ixP e)).toInt = (g.val : Int) ↔ (w (ix1 e)).toInt = (g.val : Int)
  rw [hidx e]

/-- Row n of the words laid out as a column is row n's word. -/
theorem wordCol_apply (w : S1003520.Idx → BitVec 32) (n : Fin 1003520) (u : Fin 1) : wordCol w (ix2 n u) = w (ix1 n) :=
  column_apply w n u

/-- The row of the table a row reads: its word wrapped, read signed and clamped. -/
theorem readRow_eq (w : S1003520.Idx → BitVec 32) (n : Fin 1003520) :
    RowOps.clampRow 10000 (by decide) (wordCol (wrapVec w)) n = graphOf (w (ix1 n)) := by
  apply Fin.ext
  show min (wordCol (wrapVec w) (StableHlo.Predicate.ixP n)).toInt.toNat (10000 - 1)
    = min (wrapWord (w (ix1 n))).toInt.toNat (10000 - 1)
  rw [ixP_eq, wordCol_apply, wrapVec_apply]

/-- The mask at row n: the row number is below the number of nodes. -/
theorem mask_row (n : Fin 1003520) :
    IntOp.cmpi .slt (BitVec.ofNat 32 n.val) 1000000#32 = 1#1 ↔ n.val < 1000000 := by
  have hn := n.isLt
  have h1 : (BitVec.ofNat 32 n.val).toNat = n.val := by
    rw [BitVec.toNat_ofNat]; omega
  rw [StableHlo.Predicate.slt_iff_toNat (by rw [h1]; omega) (by decide), h1]
  rfl

/-- Row n of the masked scores, of the padded words and of the first region's output, by name. -/
abbrev maskedScore (n : Fin 1003520) : EReal := (V9 m ρ c main_v18 : S1003520x1.Idx → EReal) (ix2 n (0 : Fin 1))
abbrev padWord (n : Fin 1003520) : BitVec 32 := (V5 m ρ c main_v1 : S1003520.Idx → BitVec 32) (ix1 n)
abbrev rawScore (n : Fin 1003520) : EReal := (V6 m ρ c main_v13 : S1003520x1.Idx → EReal) (ix2 n (0 : Fin 1))

/-- The masked scores: the first region's output on the real rows, zero beyond the last node. -/
theorem v18_eq (n : Fin 1003520) :
    maskedScore m ρ c n = if n.val < 1000000 then rawScore m ρ c n else 0 := by
  have e98 : W9 m ρ c (Proc.devRef .tc main_v18) = W8 m ρ c (Proc.devRef .tc main_v18) := by not_written hostOps1_2
  have e13 : W7 m ρ c (Proc.devRef .tc main_v13) = W6 m ρ c (Proc.devRef .tc main_v13) := by not_written hostOps1
  show (W9 m ρ c (Proc.devRef .tc main_v18) : S1003520x1.Idx → EReal) (ix2 n (0 : Fin 1)) = _
  rw [e98]
  show (StableHlo.after (hostOps1_1 (F := Ideal)) (W7 m ρ c) (Proc.devRef .tc main_v18) : S1003520x1.Idx → EReal) (ix2 n (0 : Fin 1)) = _
  rw [where_v18, select_apply, e13]
  show Scalar.select ((StableHlo.after (hostOps1 (F := Ideal)) (W6 m ρ c) (Proc.devRef .tc main_v17) : S1003520x1.Idx → BitVec 1) (ix2 n (0 : Fin 1)))
      (rawScore m ρ c n)
      (broadcastInDim S1003520x1 ![] bcast_S_S1003520x1
        (StableHlo.after (hostOps1 (F := Ideal)) (W6 m ρ c) (Proc.devRef .tc main_cst) : S_.Idx → EReal) (ix2 n (0 : Fin 1))) = _
  rw [mask_v17, fill_cst, broadcastInDim_scalar_apply, constant_apply, Ideal.ofBits_zero_f32]
  show Scalar.select (IntOp.cmpi .slt
      (broadcastInDim S1003520x1 ![0] bcast_S1003520_S1003520x1_0 (iotaInDim S1003520 32 0) (ix2 n (0 : Fin 1)))
      (broadcastInDim S1003520x1 ![] bcast_S_S1003520x1 (constantI S_ 32 1000000#32) (ix2 n (0 : Fin 1)))) _ _ = _
  rw [column_apply, broadcastInDim_scalar_apply]
  show Scalar.select (IntOp.cmpi .slt (BitVec.ofNat 32 n.val) 1000000#32) _ _ = _
  by_cases h : n.val < 1000000
  · rw [(mask_row n).2 h, select_one, if_pos h]
  · rw [eq_zero_of_ne_one (fun e => h ((mask_row n).1 e)), select_zero, if_neg h]

/-- Row n of the totals column: the masked scores of the padded rows whose word names exactly the graph row n reads from. -/
theorem v30_eq (n : Fin 1003520) (u : Fin 1) :
    (V9 m ρ c main_v30 : S1003520x1.Idx → EReal) (ix2 n u)
      = ∑ e ∈ Finset.univ.filter (fun e : Fin 1003520 => names (padWord m ρ c e) (graphOf (padWord m ρ c n))),
          maskedScore m ρ c e := by
  have e98 : W9 m ρ c (Proc.devRef .tc main_v18) = W8 m ρ c (Proc.devRef .tc main_v18) := by not_written hostOps1_2
  have e1 : W8 m ρ c (Proc.devRef .tc main_v1) = W5 m ρ c (Proc.devRef .tc main_v1) :=
    calc W8 m ρ c (Proc.devRef .tc main_v1)
      _ = W7 m ρ c (Proc.devRef .tc main_v1) := by not_written hostOps1_1
      _ = W6 m ρ c (Proc.devRef .tc main_v1) := by not_written hostOps1
      _ = W5 m ρ c (Proc.devRef .tc main_v1) := W6_of_ne m ρ c main_v1 (by decide)
  show (StableHlo.after (hostOps1_2 (F := Ideal)) (W8 m ρ c) (Proc.devRef .tc main_v30) : S1003520x1.Idx → EReal) (ix2 n u) = _
  rw [totals_v30, column_apply, e1, ← e98,
    RowOps.gather_row1 gather_S10000_S1003520x1_S1003520_n_0_n_n_0_1_1 rfl rfl rfl rfl _ _ n (by decide),
    readRow_eq, totals_apply]

/-- The result array is the leading 1000000 rows of the second region's output. -/
theorem v32_arr :
    (W11 m ρ c (Proc.devRef .tc main_v32) : S1000000x128.Idx → EReal)
      = extractStridedSlice S1000000x128 ![0, 0] (V10 m ρ c main_v31 : S1003520x128.Idx → EReal) slices_S1003520x128_S1000000x128_0_0 := by
  show StableHlo.after hostOps2 _ (Proc.devRef .tc main_v32) = _
  after_results

/-- The result is the second region's output on the real rows. -/
theorem v32_eq (n : Fin 1000000) (d : Fin 128) :
    (W11 m ρ c (Proc.devRef .tc main_v32) : S1000000x128.Idx → EReal) (ix2 n d)
      = (V10 m ρ c main_v31 : S1003520x128.Idx → EReal) (ix2 (padIdx n) d) := by
  rw [v32_arr]
  refine extractStridedSlice_apply _ _ _ (ix2 n d) (ix2 (padIdx n) d) fun a => ?_
  match a with
  | ⟨0, _⟩ => show (padIdx n).val = 0 + n.val; rw [Nat.zero_add]; rfl
  | ⟨1, _⟩ => show d.val = 0 + d.val; rw [Nat.zero_add]

end Cert.KernelIdeal.HostBetween

end
-- ==== Proof.KScatter.lean ====
/-
  THE PADDED SUM.
  The 1003520 padded rows consist of the 1000000 real rows, embedded by padIdx (same position), followed by
  3520 rows of padding.  A real row carries the node's word and the node's term; a padding row carries the
  term 0.  So in the sum of f over the padded rows whose word names the graph g, every row that is not the
  image of a real row adds 0, and the rows that do add something are in bijection (n ↦ padIdx n, injective
  since it keeps the position) with the real rows whose word names g and whose term is not 0, with equal terms.
  Two finite sums in a commutative monoid that agree along a bijection of their nonzero terms are equal.
-/
import proofs.«178402_j44057774522738_1_alg».proof.Proof.Spec

set_option maxRecDepth 16384

open scoped BigOperators

noncomputable section

namespace Cert.ChargeAttn

open Idealize.ShloMosaic

/-- A graph's total over the padded rows is its total over the real rows: a padded row beyond the last node adds 0,
    and a real row's word and term are the node's. -/
theorem sum_padded (w : Fin 1003520 → BitVec 32) (w' : Fin 1000000 → BitVec 32) (f : Fin 1003520 → EReal)
    (f' : Fin 1000000 → EReal) (g : Fin 10000)
    (hw : ∀ n : Fin 1000000, w (padIdx n) = w' n) (hf : ∀ n : Fin 1000000, f (padIdx n) = f' n)
    (hz : ∀ n : Fin 1003520, 1000000 ≤ n.val → f n = 0) :
    ∑ e ∈ Finset.univ.filter (fun e : Fin 1003520 => names (w e) g), f e
      = ∑ n ∈ Finset.univ.filter (fun n : Fin 1000000 => names (w' n) g), f' n := by
  symm
  refine Finset.sum_bij_ne_zero (fun n _ _ => padIdx n) ?_ ?_ ?_ ?_
  · -- a real row whose word names g lands on a padded row whose word names g
    intro n hn _
    rw [Finset.mem_filter] at hn ⊢
    exact ⟨Finset.mem_univ _, by rw [hw n]; exact hn.2⟩
  · -- padIdx keeps the position, so it is injective
    intro a _ _ b _ _ h
    have hv : (padIdx a).val = (padIdx b).val := congrArg Fin.val h
    exact Fin.ext hv
  · -- a padded row with a nonzero term lies below 1000000, so it is the image of a real row
    intro b hb hne
    have hlt : b.val < 1000000 := by
      by_contra hge
      exact hne (hz b (by omega))
    have hpb : padIdx ⟨b.val, hlt⟩ = b := Fin.ext rfl
    rw [Finset.mem_filter] at hb
    refine ⟨⟨b.val, hlt⟩, ?_, ?_, hpb⟩
    · rw [Finset.mem_filter]
      refine ⟨Finset.mem_univ _, ?_⟩
      rw [← hw, hpb]
      exact hb.2
    · rw [← hf, hpb]
      exact hne
  · -- the terms agree along the embedding
    intro n _ _
    exact (hf n).symm

end Cert.ChargeAttn

end
-- ==== Proof.KValue.lean ====
/-
  THE KERNEL'S RESULT IS THE RESULT ARRAY. The result buffer holds the first 1000000 rows of the second region's output.
  Row n of that output is the result row of padded row n, read from the second region's entry: the padded features (a real
  node's own), the charge column (the charge of the graph the node's word reads from), the masked scores and the totals
  column, and the weights. On a real row the masked score is the first region's output, which is the node's score because
  the first region is entered from the same padded features, charge column and weights. The totals column sums the masked
  scores of the padded rows whose word names a graph exactly; a row beyond the last node carries the zero word but a zero
  masked score, so that sum is the graph's total over the real nodes.
-/
import proofs.«178402_j44057774522738_1_alg».proof.Proof.KArray0
import proofs.«178402_j44057774522738_1_alg».proof.Proof.KArray1
import proofs.«178402_j44057774522738_1_alg».proof.Proof.KHost0
import proofs.«178402_j44057774522738_1_alg».proof.Proof.KHost1
import proofs.«178402_j44057774522738_1_alg».proof.Proof.KScatter

set_option maxRecDepth 16384

open scoped BigOperators

noncomputable section

namespace Cert.KernelIdeal.Named

open Cert.KernelIdeal Cert.KernelIdeal.Gen Cert.ChargeAttn
open Idealize.ShloMosaic Idealize.ShloMosaic.TcCoe Idealize.ShloMosaic.ValueIdx Idealize.SL.Sem
open Cert.KernelIdeal.HostBefore Cert.KernelIdeal.HostBetween Cert.KernelIdeal.Arrays

variable (m : (ℓ : Loc nD τ sig) → Buf (Elt Ideal) ℓ) (ρ : Dev nD → PrngReg) (c : Dev nD)

/-- The launch contents of @main's arguments, by name. -/
abbrev a0 : S1000000x128.Idx → EReal := (m ((c : Thread nD τ).loc main_arg0))
abbrev a1 : S10000.Idx → EReal := (m ((c : Thread nD τ).loc main_arg1))
abbrev a2 : S1000000.Idx → BitVec 32 := (m ((c : Thread nD τ).loc main_arg2))
abbrev a3 : S128x128.Idx → EReal := (m ((c : Thread nD τ).loc main_arg3))
abbrev a4 : S128.Idx → EReal := (m ((c : Thread nD τ).loc main_arg4))
abbrev a5 : S2x128.Idx → EReal := (m ((c : Thread nD τ).loc main_arg5))
abbrev a6 : S2x128.Idx → EReal := (m ((c : Thread nD τ).loc main_arg6))
abbrev a7 : S128x128.Idx → EReal := (m ((c : Thread nD τ).loc main_arg7))
abbrev a8 : S128.Idx → EReal := (m ((c : Thread nD τ).loc main_arg8))
abbrev a9 : S128x128.Idx → EReal := (m ((c : Thread nD τ).loc main_arg9))
abbrev a10 : S128.Idx → EReal := (m ((c : Thread nD τ).loc main_arg10))

/-- A real node's padded word is its own word. -/
theorem padWord_real (n : Fin 1000000) : padWord m ρ c (padIdx n) = a2 m c (ix1 n) := v1_real m ρ c n

/-- A real node's row of the padded features, at both regions' entries. -/
theorem feat5 (n : Fin 1000000) :
    (fun j : Fin 128 => (V5 m ρ c main_v0 : S1003520x128.Idx → EReal) (ix2 (padIdx n) j)) = feat (a0 m c) n :=
  funext fun j => v0_real m ρ c n j
theorem feat9 (n : Fin 1000000) :
    (fun j : Fin 128 => (V9 m ρ c main_v0 : S1003520x128.Idx → EReal) (ix2 (padIdx n) j)) = feat (a0 m c) n := by
  rw [keep_main_v0]; exact feat5 m ρ c n

/-- A real node's entry of the charge column is the charge of the graph it reads from, at both regions' entries. -/
theorem charge5 (n : Fin 1000000) :
    (V5 m ρ c main_v9 : S1003520x1.Idx → EReal) (ix2 (padIdx n) (0 : Fin 1)) = chargeOf (a1 m c) (a2 m c) n := by
  rw [v9_eq, v1_real]; rfl
theorem charge9 (n : Fin 1000000) :
    (V9 m ρ c main_v9 : S1003520x1.Idx → EReal) (ix2 (padIdx n) (0 : Fin 1)) = chargeOf (a1 m c) (a2 m c) n := by
  rw [keep_main_v9]; exact charge5 m ρ c n

/-- The first region's output on a real row is the node's score. -/
theorem raw_real (n : Fin 1000000) :
    rawScore m ρ c (padIdx n) = attn (a0 m c) (a1 m c) (a2 m c) (a3 m c) (a4 m c) (a5 m c) n := by
  show (V6 m ρ c main_v13 : S1003520x1.Idx → EReal) (ix2 (padIdx n) (0 : Fin 1)) = _
  rw [show (V6 m ρ c main_v13 : S1003520x1.Idx → EReal) = (dat0 (F := Ideal) (V5 m ρ) c).arrAt 5 cfg0.N from (hF0 m ρ c 5).symm]
  rw [scores (V5 m ρ) c (padIdx n) (0 : Fin 1), feat5, charge5, arg3_eq, arg5_eq]
  unfold attn
  congr 1
  funext d
  exact v10_eq m ρ c (0 : Fin 1) d

/-- The masked score of a real row is the node's score; beyond the last node it is zero. -/
theorem masked_real (n : Fin 1000000) :
    maskedScore m ρ c (padIdx n) = attn (a0 m c) (a1 m c) (a2 m c) (a3 m c) (a4 m c) (a5 m c) n := by
  rw [v18_eq, if_pos (show (padIdx n).val < 1000000 from n.isLt)]; exact raw_real m ρ c n
theorem masked_tail (e : Fin 1003520) (h : 1000000 ≤ e.val) : maskedScore m ρ c e = 0 := by
  rw [v18_eq, if_neg (by omega)]

/-- A real node's entry of the totals column is the total of the graph it reads from. -/
theorem total9 (n : Fin 1000000) :
    (V9 m ρ c main_v30 : S1003520x1.Idx → EReal) (ix2 (padIdx n) (0 : Fin 1))
      = total (a0 m c) (a1 m c) (a2 m c) (a3 m c) (a4 m c) (a5 m c) (graphOf (a2 m c (ix1 n))) := by
  rw [v30_eq, padWord_real]
  exact sum_padded (padWord m ρ c) (fun k => a2 m c (ix1 k)) (maskedScore m ρ c)
    (attn (a0 m c) (a1 m c) (a2 m c) (a3 m c) (a4 m c) (a5 m c)) _ (padWord_real m ρ c) (masked_real m ρ c) (masked_tail m ρ c)

/-- The result buffer at the end of the run is the result array of the launch contents of the eleven arguments. -/
theorem result_eq :
    (W11 m ρ c (Proc.devRef .tc main_v32) : S1000000x128.Idx → EReal)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨n, d, rfl⟩ : ∃ (n : Fin 1000000) (d : Fin 128), i = ix2 n d := ⟨i 0, i 1, eq_ix2 i⟩
  rw [v32_eq m ρ c n d]
  rw [show (V10 m ρ c main_v31 : S1003520x128.Idx → EReal) = (dat1 (F := Ideal) (V9 m ρ) c).arrAt 9 cfg1.N from (hF1 m ρ c 9).symm]
  rw [rows (V9 m ρ) c (padIdx n) d, feat9, charge9, total9]
  rw [show (V9 m ρ c main_v18 : S1003520x1.Idx → EReal) (ix2 (padIdx n) (0 : Fin 1)) = _ from masked_real m ρ c n]
  rw [keep_main_arg6, keep_main_arg7, keep_main_v11, keep_main_arg9, keep_main_v12, arg6_eq, arg7_eq, arg9_eq]
  show _ = outRow (feat (a0 m c) n) _ _ _ (two (a6 m c)) (sq (a7 m c)) (vec (a8 m c)) (sq (a9 m c)) (vec (a10 m c)) d
  congr 1
  · funext e; exact v11_eq m ρ c (0 : Fin 1) e
  · funext e; exact v12_eq m ρ c (0 : Fin 1) e

end Cert.KernelIdeal.Named

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«178402_j44057774522738_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RScore.lean ====
/-
  THE REFERENCE'S SCORES. A graph's charge c is split into p = max(c, 0) and q = max(-c, 0): the reference lays c and -c
  side by side as a two-column array and takes the positive part of each entry. Each part is divided by its maximum with
  one, and the two quotients times the two rows of Wk give the graph's key: row g of the key table is
  p/max(p,1) · Wk[0] + q/max(q,1) · Wk[1], the sum over the two columns written out. A node reads the row of that table
  named by its word, wrapped once if negative and clamped into the table, so its key is the key of the charge of the graph
  it reads from. Its query is row n of X · Wq + bq. The score before the softplus is the sum over the 128 coordinates of
  query times key (a sum started from zero), times the scale s. The softplus the reference spells out, with z - 0 compared
  with itself, picks its second branch because no extended real differs from itself, and that branch is
  max(z, 0) + log(1 + exp(-|z|)) with |z| = max(z, -z).
-/
import proofs.«178402_j44057774522738_1_alg».proof.Proof.RefRead
import proofs.«178402_j44057774522738_1_alg».proof.Proof.Spec
import proofs.«178402_j44057774522738_1_alg».proof.Proof.LibPlainDot
import proofs.«178402_j44057774522738_1_alg».proof.Proof.LibGatherScatter
import proofs.«178402_j44057774522738_1_alg».proof.Proof.LibColumn
import Idealize.ShloMosaic.Lib.IdealHost
import Idealize.ShloMosaic.Lib.Pipeline.Value
import Idealize.ShloMosaic.Lib.StableHlo.Predicate

set_option maxRecDepth 16384

open scoped BigOperators

noncomputable section

namespace Cert.ReferenceIdeal.RefValue

open Cert.ReferenceIdeal Cert.ReferenceIdeal.Gen Cert.ReferenceIdeal.ReadP Cert.ChargeAttn
open Idealize.ShloMosaic Idealize.ShloMosaic.TcCoe Idealize.ShloMosaic.ValueIdx Idealize.SL.Sem
open Idealize.ShloMosaic.StableHlo.Predicate (ixP)

variable (x0 : (⟨S1000000x128, .f32⟩ : BufTy).Contents (Elt Ideal)) (x1 : (⟨S10000, .f32⟩ : BufTy).Contents (Elt Ideal))
  (x2 : (⟨S1000000, .i32⟩ : BufTy).Contents (Elt Ideal)) (x3 : (⟨S128x128, .f32⟩ : BufTy).Contents (Elt Ideal))
  (x4 : (⟨S128, .f32⟩ : BufTy).Contents (Elt Ideal)) (x5 x6 : (⟨S2x128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-! ## The softplus at a point -/

/-- The spelt-out softplus of z: "z - 0 differs from itself" never holds, so the second branch is taken, and it is
    max(z, 0) + log(1 + exp(-max(z, -z))). -/
private theorem softplus_sel0 (z : EReal) :
    Scalar.select
      (FloatOps.cmpf (F := Ideal) (φ := .f32) .une
        (FloatOps.subf (F := Ideal) (φ := .f32) z (FloatOps.ofBits .f32 0x00000000#32))
        (FloatOps.subf (F := Ideal) (φ := .f32) z (FloatOps.ofBits .f32 0x00000000#32)))
      (FloatOps.addf (F := Ideal) (φ := .f32) z (FloatOps.ofBits .f32 0x00000000#32))
      (FloatOps.addf (F := Ideal) (φ := .f32)
        (FloatOps.maximumf (F := Ideal) (φ := .f32) z (FloatOps.ofBits .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) z (FloatOps.ofBits .f32 0x00000000#32)))))))
      = softplus z := by
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def]
  rw [Ideal.absf_def, Ideal.cmpf_def, sub_zero', cmp_ne_self .une (Or.inr rfl), select_zero]
  rfl

/-! ## A graph's two parts and its key -/

/-- The first column of the two-column array is the charge. -/
private theorem v3_left0 (g : Fin 10000) : val_main_v3 (F := Ideal) x1 (ix2 g (0 : Fin 2)) = x1 (ix1 g) := by
  unfold val_main_v3
  refine (concatenate_pair_apply_left (t := S10000x2) (1 : Fin 2) (val_main_v1 (F := Ideal) x1) (val_main_v2 (F := Ideal) x1)
    concatenates_S10000x1_S10000x1_S10000x2_d1 (ix2 g (0 : Fin 2)) rfl (ix2 g (0 : Fin 1))
    (fun b => by match b with | ⟨0, _⟩ => rfl | ⟨1, _⟩ => rfl)).trans ?_
  rw [val_main_v1_apply]
  exact congrArg x1 (funext fun a => Fin.ext (by match a with | ⟨0, _⟩ => rfl))

/-- The second column of the two-column array is the charge negated. -/
private theorem v3_right0 (g : Fin 10000) : val_main_v3 (F := Ideal) x1 (ix2 g (1 : Fin 2)) = -(x1 (ix1 g)) := by
  unfold val_main_v3
  refine (concatenate_pair_apply_right (t := S10000x2) (1 : Fin 2) (val_main_v1 (F := Ideal) x1) (val_main_v2 (F := Ideal) x1)
    concatenates_S10000x1_S10000x1_S10000x2_d1 (ix2 g (1 : Fin 2)) rfl rfl (ix2 g (0 : Fin 1))
    (fun b hb => by
      match b, hb with
      | ⟨0, _⟩, _ => rfl
      | ⟨1, _⟩, hb => exact absurd (Fin.ext rfl) hb) rfl).trans ?_
  rw [val_main_v2_apply, val_main_v0_apply]
  exact congrArg (fun t => -(x1 t)) (funext fun a => Fin.ext (by match a with | ⟨0, _⟩ => rfl))

/-- The positive part of the first column is the charge's positive part. -/
private theorem v4_left0 (g : Fin 10000) :
    val_main_v4 (F := Ideal) x1 (ix2 g (0 : Fin 2)) = ChargeAttn.posPart (x1 (ix1 g)) := by
  rw [val_main_v4_apply, v3_left0, val_main_call0_v0_apply, val_main_call0_cst_apply, Ideal.ofBits_def,
    Ideal.ofBits_zero_f32]
  rfl

/-- The positive part of the second column is the charge's negative part. -/
private theorem v4_right0 (g : Fin 10000) :
    val_main_v4 (F := Ideal) x1 (ix2 g (1 : Fin 2)) = ChargeAttn.negPart (x1 (ix1 g)) := by
  rw [val_main_v4_apply, v3_right0, val_main_call0_v0_apply, val_main_call0_cst_apply, Ideal.ofBits_def,
    Ideal.ofBits_zero_f32]
  rfl

/-- A part over its maximum with one, first column. -/
private theorem v11_left0 (g : Fin 10000) :
    val_main_v11 (F := Ideal) x1 (ix2 g (0 : Fin 2)) = unitize (ChargeAttn.posPart (x1 (ix1 g))) := by
  rw [val_main_v11_apply, val_main_v6_apply, v4_left0, val_main_v5_apply, val_main_cst_apply, Ideal.ofBits_def,
    Ideal.ofBits_one_f32]
  rfl

/-- A part over its maximum with one, second column. -/
private theorem v11_right0 (g : Fin 10000) :
    val_main_v11 (F := Ideal) x1 (ix2 g (1 : Fin 2)) = unitize (ChargeAttn.negPart (x1 (ix1 g))) := by
  rw [val_main_v11_apply, val_main_v6_apply, v4_right0, val_main_v5_apply, val_main_cst_apply, Ideal.ofBits_def,
    Ideal.ofBits_one_f32]
  rfl

/-- Row g of the key table: the sum over the two columns, written out. -/
private theorem v12_at0 (g : Fin 10000) (d : Fin 128) :
    val_main_v12 (F := Ideal) x1 x5 (ix2 g d) = key (two x5) (x1 (ix1 g)) d := by
  have e0 : lidx_main_v12 (ix2 g d) 0 = ix2 g (0 : Fin 2) :=
    funext fun a => Fin.ext (by match a with | ⟨0, _⟩ => rfl | ⟨1, _⟩ => rfl)
  have e1 : lidx_main_v12 (ix2 g d) 1 = ix2 g (1 : Fin 2) :=
    funext fun a => Fin.ext (by match a with | ⟨0, _⟩ => rfl | ⟨1, _⟩ => rfl)
  have f0 : ridx_main_v12 (ix2 g d) 0 = ix2 (0 : Fin 2) d :=
    funext fun a => Fin.ext (by match a with | ⟨0, _⟩ => rfl | ⟨1, _⟩ => rfl)
  have f1 : ridx_main_v12 (ix2 g d) 1 = ix2 (1 : Fin 2) d :=
    funext fun a => Fin.ext (by match a with | ⟨0, _⟩ => rfl | ⟨1, _⟩ => rfl)
  rw [val_main_v12_apply, Fin.sum_univ_two, e0, e1, f0, f1, v11_left0, v11_right0]
  rfl

/-! ## A node's key and query -/

/-- The column of row numbers holds each node's word wrapped once. -/
private theorem v19_at0 (n : Fin 1000000) : val_main_v19 (F := Ideal) x2 (ixP n) = wrapWord (x2 (ix1 n)) := by
  have e : idx_main_v19 (ixP n) = ix1 n := funext fun a => Fin.ext (by match a with | ⟨0, _⟩ => rfl)
  rw [val_main_v19_apply, e, val_main_v18_apply, val_main_v15_apply, val_main_v17_apply, val_main_v14_apply,
    val_main_v16_apply, val_main_c_apply, val_main_c_0_apply]
  rfl

/-- A node's key: the key table's row at its wrapped, clamped word. -/
private theorem v20_at0 (n : Fin 1000000) (d : Fin 128) :
    val_main_v20 (F := Ideal) x1 x2 x5 (ix2 n d) = key (two x5) (chargeOf x1 x2 n) d := by
  unfold val_main_v20
  refine (RowOps.gather_rows gather_S10000x128_S1000000x1_S1000000x128_1_0_n_n_0_1_1128 rfl rfl rfl rfl rfl rfl
    (val_main_v12 (F := Ideal) x1 x5) (val_main_v19 (F := Ideal) x2) n d (by decide)).trans ?_
  have hc : RowOps.clampRow 10000 (by decide) (val_main_v19 (F := Ideal) x2) n = graphOf (x2 (ix1 n)) := by
    show clampWord (val_main_v19 (F := Ideal) x2 (ixP n)) = _
    rw [v19_at0]
    rfl
  rw [hc, v12_at0]
  rfl

/-- A node's query: row n of X · Wq + bq. -/
private theorem v10_at0 (n : Fin 1000000) (d : Fin 128) :
    val_main_v10 (F := Ideal) x0 x3 x4 (ix2 n d) = affine (feat x0 n) (sq x3) (vec x4) d := by
  have e : idx_main_v8 (idx_main_v9 (ix2 n d)) = ix1 d := funext fun a => Fin.ext (by match a with | ⟨0, _⟩ => rfl)
  rw [val_main_v10_apply, val_main_v7_apply, val_main_v9_apply, val_main_v8_apply, e]
  show (∑ k : Fin 128, x0 (lidx_main_v7 (ix2 n d) k) * x3 (ridx_main_v7 (ix2 n d) k)) + x4 (ix1 d)
    = (∑ j : Fin 128, x0 (ix2 n j) * x3 (ix2 j d)) + x4 (ix1 d)
  congr 1
  refine Finset.sum_congr rfl fun k _ => ?_
  have el : lidx_main_v7 (ix2 n d) k = ix2 n k :=
    funext fun a => Fin.ext (by match a with | ⟨0, _⟩ => rfl | ⟨1, _⟩ => rfl)
  have er : ridx_main_v7 (ix2 n d) k = ix2 k d :=
    funext fun a => Fin.ext (by match a with | ⟨0, _⟩ => rfl | ⟨1, _⟩ => rfl)
  rw [el, er]

/-! ## The score -/

/-- The scaled inner product of query and key. -/
private theorem v32_at0 (n : Fin 1000000) (u : Fin 1) :
    val_main_v32 (F := Ideal) x0 x1 x2 x3 x4 x5 (ix2 n u)
      = (∑ d : Fin 128, affine (feat x0 n) (sq x3) (vec x4) d * key (two x5) (chargeOf x1 x2 n) d) * scale := by
  have e : idx_main_v30 (ix2 n u) = ix1 n := funext fun a => Fin.ext (by match a with | ⟨0, _⟩ => rfl)
  rw [val_main_v32_apply, val_main_v30_apply, e, val_main_v31_apply, val_main_cst_4_apply, val_main_v29_apply,
    val_main_cst_3_apply, Ideal.ofBits_def, Ideal.ofBits_def, Ideal.ofBits_zero_f32]
  show (0 + ∑ k : Fin 128, val_main_v28 (F := Ideal) x0 x1 x2 x3 x4 x5 (idx_main_v29 (ix1 n) k)) * scale = _
  rw [zero_add]
  congr 1
  refine Finset.sum_congr rfl fun k _ => ?_
  have ek : idx_main_v29 (ix1 n) k = ix2 n k :=
    funext fun a => Fin.ext (by match a with | ⟨0, _⟩ => rfl | ⟨1, _⟩ => rfl)
  rw [ek, val_main_v28_apply, v10_at0, v20_at0]
  rfl

/-- The reference's softplus at row n, in the scaled inner product z: max(z, 0) + log(1 + exp(-|z|)). -/
private theorem v33_at0 (n : Fin 1000000) (u : Fin 1) :
    val_main_v33 (F := Ideal) x0 x1 x2 x3 x4 x5 (ix2 n u)
      = softplus (val_main_v32 (F := Ideal) x0 x1 x2 x3 x4 x5 (ix2 n u)) := by
  rw [val_main_v33_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply]
  repeat rw [val_main_call1_cst_apply]
  generalize val_main_v32 (F := Ideal) x0 x1 x2 x3 x4 x5 (ix2 n u) = z
  exact softplus_sel0 z

/-- Row n of the reference's score column is node n's score. -/
theorem score_eq (n : Fin 1000000) (u : Fin 1) :
    val_main_v33 (F := Ideal) x0 x1 x2 x3 x4 x5 (ix2 n u) = attn x0 x1 x2 x3 x4 x5 n := by
  rw [v33_at0, v32_at0]
  rfl

end Cert.ReferenceIdeal.RefValue

end
-- ==== Proof.RTotal.lean ====
/-
  THE REFERENCE'S TOTALS. The reference forms a column T of 10000 totals by starting from zeros and adding the score of
  every node e to the row its word batch[e] names when read signed and not clamped (a word that is negative or past the
  end names no row), so T[g] = ∑ over the nodes e whose word names g exactly of score(e). Node n then reads the row of T
  named by its own word wrapped once when negative and clamped into [0, 9999], which is the row graphOf(batch[n]).
  Hence row n of the totals read back is the sum of the scores of the nodes whose word names graphOf(batch[n]).
-/
import proofs.«178402_j44057774522738_1_alg».proof.Proof.RScore
import proofs.«178402_j44057774522738_1_alg».proof.Proof.LibGatherScatter
import Idealize.ShloMosaic.Lib.StableHlo.Predicate
import Idealize.ShloMosaic.PureOps.Ideal.Laws

set_option maxRecDepth 16384

open scoped BigOperators

noncomputable section

namespace Cert.ReferenceIdeal.RefValue

open Cert.ReferenceIdeal Cert.ReferenceIdeal.Gen Cert.ReferenceIdeal.ReadP Cert.ChargeAttn
open Idealize.ShloMosaic Idealize.ShloMosaic.TcCoe Idealize.ShloMosaic.ValueIdx Idealize.SL.Sem
open Idealize.ShloMosaic.StableHlo.Predicate Idealize.ShloMosaic.RowOps

variable (x0 : (⟨S1000000x128, .f32⟩ : BufTy).Contents (Elt Ideal)) (x1 : (⟨S10000, .f32⟩ : BufTy).Contents (Elt Ideal))
  (x2 : (⟨S1000000, .i32⟩ : BufTy).Contents (Elt Ideal)) (x3 : (⟨S128x128, .f32⟩ : BufTy).Contents (Elt Ideal))
  (x4 : (⟨S128, .f32⟩ : BufTy).Contents (Elt Ideal)) (x5 x6 : (⟨S2x128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-- The column of words the totals are read at holds, at row e, node e's word wrapped once when negative. -/
private theorem totalReadCol_at (e : Fin 1000000) :
    val_main_v42 (F := Ideal) x2 (ixP e) = wrapWord (x2 (ix1 e)) := by
  have hi : idx_main_v42 (ixP e) = ix1 e := by
    funext a
    match a with
    | ⟨0, _⟩ => rfl
  rw [val_main_v42_apply, val_main_v41_apply, val_main_v38_apply, val_main_v40_apply, val_main_v37_apply,
    val_main_v39_apply, val_main_c_6_apply, val_main_c_7_apply, hi]
  rfl

/-- The column of words the scores are added at holds, at row e, node e's word itself. -/
private theorem totalAddCol_at (e : Fin 1000000) :
    val_main_v35 (F := Ideal) x2 (ixP e) = x2 (ix1 e) := by
  have hi : idx_main_v35 (ixP e) = ix1 e := by
    funext a
    match a with
    | ⟨0, _⟩ => rfl
  rw [val_main_v35_apply, hi]

/-- The column the scores are added into starts from zero. -/
private theorem totalZeroCol_at (i : S10000x1.Idx) : val_main_v34 (F := Ideal) i = 0 := by
  rw [val_main_v34_apply, val_main_cst_5_apply, Ideal.ofBits_def, Ideal.ofBits_zero_f32]

/-- Scores added from zero into the rows their words name exactly: row g collects the nodes whose word names g. -/
private theorem addRows_total0 (zero : (⟨S10000x1, .f32⟩ : BufTy).Contents (Elt Ideal))
    (col : (⟨S1000000x1, .i32⟩ : BufTy).Contents (Elt Ideal)) (upd : (⟨S1000000x1, .f32⟩ : BufTy).Contents (Elt Ideal))
    (f : Fin 1000000 → EReal) (hz : ∀ i, zero i = 0) (hc : ∀ e, col (ixP e) = x2 (ix1 e))
    (hu : ∀ e u, upd (ix2 e u) = f e) (g : Fin 10000) (u : Fin 1) :
    Host.scatterAdd (F := Ideal) (φ := .f32) scatter_S10000x1_S1000000x1_S1000000x1_1_0_0_1 zero col upd (ix2 g u)
      = ∑ n ∈ Finset.univ.filter (fun n : Fin 1000000 => names (x2 (ix1 n)) g), f n := by
  show Ideal.hostScatterAdd scatter_S10000x1_S1000000x1_S1000000x1_1_0_0_1 zero col upd (ix2 g u) = _
  rw [scatterAdd_rows (K := 10000) (D := 1) (n := 1000000) (w := 32)
    scatter_S10000x1_S1000000x1_S1000000x1_1_0_0_1 rfl rfl rfl rfl, hz, zero_add]
  refine Finset.sum_congr (Finset.filter_congr fun e _ => ?_) fun e _ => hu e u
  show (col (ixP e)).toInt = ((g.val : Nat) : Int) ↔ (x2 (ix1 e)).toInt = ((g.val : Nat) : Int)
  rw [hc]

/-- Row g of the column of totals is the sum of the scores of the nodes whose word names g exactly. -/
private theorem totalCol_at (g : Fin 10000) (u : Fin 1) :
    val_main_v36 (F := Ideal) x0 x1 x2 x3 x4 x5 (ix2 g u) = total x0 x1 x2 x3 x4 x5 g := by
  unfold val_main_v36 total
  exact addRows_total0 x2 _ _ _ (fun n => attn x0 x1 x2 x3 x4 x5 n) totalZeroCol_at (totalAddCol_at x2)
    (score_eq x0 x1 x2 x3 x4 x5) g u

/-- Rows of a column of totals read at words wrapped once: row n reads the row of the graph its word names after
    wrapping and clamping. -/
private theorem readRows_graph0 (tot : (⟨S10000x1, .f32⟩ : BufTy).Contents (Elt Ideal))
    (col : (⟨S1000000x1, .i32⟩ : BufTy).Contents (Elt Ideal)) (hc : ∀ e, col (ixP e) = wrapWord (x2 (ix1 e)))
    (n : Fin 1000000) (u : Fin 1) :
    (Host.gather gather_S10000x1_S1000000x1_S1000000x1_1_0_n_n_0_1_11 tot col :
        (⟨S1000000x1, .f32⟩ : BufTy).Contents (Elt Ideal)) (ix2 n u)
      = tot (ix2 (graphOf (x2 (ix1 n))) u) := by
  have hg : clampRow 10000 (by decide) col n = graphOf (x2 (ix1 n)) := by
    apply Fin.ext
    show min (col (ixP n)).toInt.toNat (10000 - 1) = min (wrapWord (x2 (ix1 n))).toInt.toNat (10000 - 1)
    rw [hc]
  rw [gather_rows (N := 10000) (D := 1) (n := 1000000) (w := 32)
    gather_S10000x1_S1000000x1_S1000000x1_1_0_n_n_0_1_11 rfl rfl rfl rfl rfl rfl tot col n u (by decide), hg]

/-- Row n of the reference's totals column is the total of the graph node n reads from. -/
theorem total_eq (n : Fin 1000000) (u : Fin 1) :
    val_main_v43 (F := Ideal) x0 x1 x2 x3 x4 x5 (ix2 n u) = total x0 x1 x2 x3 x4 x5 (graphOf (x2 (ix1 n))) := by
  unfold val_main_v43
  rw [readRows_graph0 x2 _ _ (totalReadCol_at x2) n u]
  exact totalCol_at x0 x1 x2 x3 x4 x5 _ u

end Cert.ReferenceIdeal.RefValue

end
-- ==== Proof.REmbed.lean ====
/-
  THE REFERENCE'S EMBEDDING. For a graph with charge c the reference lays the two columns [c, −c] side by side and takes
  max(·, 0) of both, which gives the positive part p = max(c, 0) in column 0 and the negative part q = max(−c, 0) in
  column 1. The product of that [10000 × 2] array with Wv is a sum over an axis of two terms, so row g of the table is
  p · Wv[0] + q · Wv[1], the value of graph g's charge. Node n reads the row of the table named by its word batch[n]
  wrapped once when negative and clamped into [0, 9999], that is the row graphOf(batch[n]); so row n of the rows read is
  the value of the charge node n reads. The score of node n and the total of its graph are single columns repeated along
  the 128 entries. Entry (n, d) of the embedding is therefore score(n) · value(n, d) / total(graphOf(batch[n])), the
  quotient being the total one of the extended reals on both sides.
-/
import proofs.«178402_j44057774522738_1_alg».proof.Proof.RTotal
import proofs.«178402_j44057774522738_1_alg».proof.Proof.LibGatherScatter
import Idealize.ShloMosaic.Lib.StableHlo.Predicate
import Idealize.ShloMosaic.Lib.Pipeline.Value
import Idealize.ShloMosaic.Lib.ValueIdx
import Idealize.ShloMosaic.PureOps.Ideal.Laws

set_option maxRecDepth 16384

open scoped BigOperators

noncomputable section

namespace Cert.ReferenceIdeal.RefValue

open Cert.ReferenceIdeal Cert.ReferenceIdeal.Gen Cert.ReferenceIdeal.ReadP Cert.ChargeAttn
open Idealize.ShloMosaic Idealize.ShloMosaic.TcCoe Idealize.ShloMosaic.ValueIdx Idealize.SL.Sem
open Idealize.ShloMosaic.StableHlo.Predicate

variable (x0 : (⟨S1000000x128, .f32⟩ : BufTy).Contents (Elt Ideal)) (x1 : (⟨S10000, .f32⟩ : BufTy).Contents (Elt Ideal))
  (x2 : (⟨S1000000, .i32⟩ : BufTy).Contents (Elt Ideal)) (x3 : (⟨S128x128, .f32⟩ : BufTy).Contents (Elt Ideal))
  (x4 : (⟨S128, .f32⟩ : BufTy).Contents (Elt Ideal)) (x5 x6 : (⟨S2x128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-! ## The two columns [c, −c] and their positive parts -/

/-- Column 0 of the two-column array [c, −c] is the charge. -/
private theorem embed_cat_pos (g : Fin 10000) :
    val_main_v3 (F := Ideal) x1 (ix2 g (0 : Fin 2)) = x1 (ix1 g) := by
  unfold val_main_v3
  refine (concatenate_pair_apply_left (t := S10000x2) (s₁ := S10000x1) (s₂ := S10000x1) _ _ _ _ (ix2 g (0 : Fin 2)) rfl
    (ix2 g (0 : Fin 1)) (fun b => ?_)).trans ?_
  · match b with
    | ⟨0, _⟩ => rfl
    | ⟨1, _⟩ => rfl
  · rw [val_main_v1_apply]
    congr 1
    funext a
    match a with
    | ⟨0, _⟩ => rfl

/-- Column 1 of the two-column array [c, −c] is the charge negated. -/
private theorem embed_cat_neg (g : Fin 10000) :
    val_main_v3 (F := Ideal) x1 (ix2 g (1 : Fin 2)) = -(x1 (ix1 g)) := by
  unfold val_main_v3
  refine (concatenate_pair_apply_right (t := S10000x2) (s₁ := S10000x1) (s₂ := S10000x1) _ _ _ _ (ix2 g (1 : Fin 2)) rfl rfl
    (ix2 g (0 : Fin 1)) (fun b hb => ?_) ?_).trans ?_
  · match b with
    | ⟨0, _⟩ => rfl
    | ⟨1, _⟩ => exact absurd rfl hb
  · rfl
  · rw [val_main_v2_apply, val_main_v0_apply]
    simp only [Ideal.hostNegf_def, Ideal.negf_def]
    congr 2
    funext a
    match a with
    | ⟨0, _⟩ => rfl

/-- max([c, −c], 0) at column 0: the positive part of the charge. -/
private theorem embed_relu_pos (g : Fin 10000) :
    val_main_v4 (F := Ideal) x1 (ix2 g (0 : Fin 2)) = Cert.ChargeAttn.posPart (x1 (ix1 g)) := by
  rw [val_main_v4_apply, embed_cat_pos, val_main_call0_v0_apply, val_main_call0_cst_apply]
  simp only [Ideal.maximumf_def, Ideal.ofBits_def, Ideal.ofBits_zero_f32]
  rfl

/-- max([c, −c], 0) at column 1: the negative part of the charge. -/
private theorem embed_relu_neg (g : Fin 10000) :
    val_main_v4 (F := Ideal) x1 (ix2 g (1 : Fin 2)) = Cert.ChargeAttn.negPart (x1 (ix1 g)) := by
  rw [val_main_v4_apply, embed_cat_neg, val_main_call0_v0_apply, val_main_call0_cst_apply]
  simp only [Ideal.maximumf_def, Ideal.ofBits_def, Ideal.ofBits_zero_f32]
  rfl

/-! ## The table of values, one row a graph -/

/-- Entry (g, d) of [p, q] · Wv is the value of graph g's charge. -/
private theorem embed_valueTable (g : Fin 10000) (d : Fin 128) :
    val_main_v13 (F := Ideal) x1 x6 (ix2 g d) = value (two x6) (x1 (ix1 g)) d := by
  rw [val_main_v13_apply, Fin.sum_univ_two]
  have l0 : lidx_main_v13 (ix2 g d) (0 : Fin 2) = ix2 g (0 : Fin 2) := funext fun a => by
    match a with
    | ⟨0, _⟩ => rfl
    | ⟨1, _⟩ => rfl
  have l1 : lidx_main_v13 (ix2 g d) (1 : Fin 2) = ix2 g (1 : Fin 2) := funext fun a => by
    match a with
    | ⟨0, _⟩ => rfl
    | ⟨1, _⟩ => rfl
  have r0 : ridx_main_v13 (ix2 g d) (0 : Fin 2) = ix2 (0 : Fin 2) d := funext fun a => by
    match a with
    | ⟨0, _⟩ => rfl
    | ⟨1, _⟩ => rfl
  have r1 : ridx_main_v13 (ix2 g d) (1 : Fin 2) = ix2 (1 : Fin 2) d := funext fun a => by
    match a with
    | ⟨0, _⟩ => rfl
    | ⟨1, _⟩ => rfl
  rw [l0, l1, r0, r1, embed_relu_pos, embed_relu_neg]
  rfl

/-! ## The row a node reads -/

/-- The column of start indices at row n: node n's word wrapped once when negative. -/
private theorem embed_wrapped (n : Fin 1000000) :
    val_main_v26 (F := Ideal) x2 (ixP n) = wrapWord (x2 (ix1 n)) := by
  rw [val_main_v26_apply, val_main_v25_apply, val_main_v22_apply, val_main_v24_apply, val_main_v21_apply,
    val_main_v23_apply, val_main_c_1_apply, val_main_c_2_apply]
  have e : idx_main_v26 (ixP n) = ix1 n := funext fun a => by
    match a with
    | ⟨0, _⟩ => rfl
  rw [e]
  rfl

/-- Entry (n, d) of the rows gathered from the table: the value of the charge node n reads. -/
private theorem embed_valueRow (n : Fin 1000000) (d : Fin 128) :
    val_main_v27 (F := Ideal) x1 x2 x6 (ix2 n d) = value (two x6) (chargeOf x1 x2 n) d := by
  unfold val_main_v27
  refine (RowOps.gather_rows gather_S10000x128_S1000000x1_S1000000x128_1_0_n_n_0_1_1128 rfl rfl rfl rfl rfl rfl
    _ _ n d (by decide)).trans ?_
  rw [embed_valueTable]
  have hc : RowOps.clampRow 10000 (by decide) (val_main_v26 (F := Ideal) x2) n = graphOf (x2 (ix1 n)) := by
    show clampWord (val_main_v26 (F := Ideal) x2 (ixP n)) = _
    rw [embed_wrapped]
    rfl
  rw [hc]
  rfl

/-- Entry (n, d) of the reference's embedding: node n's score times its value entry d over its graph's total. -/
theorem embed_eq (n : Fin 1000000) (d : Fin 128) :
    val_main_v47 (F := Ideal) x0 x1 x2 x3 x4 x5 x6 (ix2 n d)
      = embed (attn x0 x1 x2 x3 x4 x5 n) (chargeOf x1 x2 n) (total x0 x1 x2 x3 x4 x5 (graphOf (x2 (ix1 n)))) (two x6) d := by
  have e44 : idx_main_v44 (ix2 n d) = ix2 n (0 : Fin 1) := funext fun a => by
    match a with
    | ⟨0, _⟩ => rfl
    | ⟨1, _⟩ => rfl
  have e46 : idx_main_v46 (ix2 n d) = ix2 n (0 : Fin 1) := funext fun a => by
    match a with
    | ⟨0, _⟩ => rfl
    | ⟨1, _⟩ => rfl
  rw [val_main_v47_apply, val_main_v45_apply, val_main_v44_apply, val_main_v46_apply, e44, e46, score_eq, total_eq,
    embed_valueRow]
  rfl

end Cert.ReferenceIdeal.RefValue

end
-- ==== Proof.RValue.lean ====
/-
  THE REFERENCE'S RESULT. Fix a node n and write e for its embedding row, e k = score · value k / total, the entry
  (n, k) of the reference's embedding array. The reference multiplies that array by W1 and adds b1: the entry (n, j) is
  z j = (∑ k, e k · W1[k, j]) + b1[j], the affine image of e. It then forms z · (1 / (1 + exp(−z))); the number one is
  the word 0x3F800000 and the logistic function is by definition the quotient 1 / (1 + exp(−z)), so this is
  z · logistic z = silu z. The second layer does the same with the row h j = silu (z j), W2 and b2. The result's entry
  (n, d) is X[n, d] + (e d + silu((∑ j, h j · W2[j, d]) + b2[d])); addition of extended reals is associative, so it
  is (X[n, d] + e d) + silu(…), the result row's entry d.
-/
import proofs.«178402_j44057774522738_1_alg».proof.Proof.REmbed
import Idealize.ShloMosaic.Lib.IdealHost

set_option maxRecDepth 16384

open scoped BigOperators

noncomputable section

namespace Cert.ReferenceIdeal.RefValue

open Cert.ReferenceIdeal Cert.ReferenceIdeal.Gen Cert.ReferenceIdeal.ReadP Cert.ChargeAttn
open Idealize.ShloMosaic Idealize.ShloMosaic.TcCoe Idealize.ShloMosaic.ValueIdx Idealize.SL.Sem

variable (x0 : (⟨S1000000x128, .f32⟩ : BufTy).Contents (Elt Ideal)) (x1 : (⟨S10000, .f32⟩ : BufTy).Contents (Elt Ideal))
  (x2 : (⟨S1000000, .i32⟩ : BufTy).Contents (Elt Ideal)) (x3 : (⟨S128x128, .f32⟩ : BufTy).Contents (Elt Ideal))
  (x4 : (⟨S128, .f32⟩ : BufTy).Contents (Elt Ideal)) (x5 x6 : (⟨S2x128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-! ## The expanded sigmoid -/

/-- z · (1 / (1 + exp(−z))), the one written as its word, is silu z. -/
private theorem silu_word (z : EReal) :
    z * Ideal.div (Ideal.ofBits .f32 0x3F800000#32) (Ideal.ofBits .f32 0x3F800000#32 + Ideal.exp (-z)) = silu z := by
  rw [Ideal.ofBits_one_f32]; rfl

/-! ## The index maps of the two products and the two biases, at (n, j) -/

private theorem lidx48_ix2 (n : Fin 1000000) (j k : Fin 128) : lidx_main_v48 (ix2 n j) k = ix2 n k :=
  funext fun a => by match a with | ⟨0, _⟩ => rfl | ⟨1, _⟩ => rfl
private theorem ridx48_ix2 (n : Fin 1000000) (j k : Fin 128) : ridx_main_v48 (ix2 n j) k = ix2 k j :=
  funext fun a => by match a with | ⟨0, _⟩ => rfl | ⟨1, _⟩ => rfl
private theorem idx50_ix2 (n : Fin 1000000) (j : Fin 128) : idx_main_v49 (idx_main_v50 (ix2 n j)) = ix1 j :=
  funext fun a => by match a with | ⟨0, _⟩ => rfl
private theorem lidx53_ix2 (n : Fin 1000000) (j k : Fin 128) : lidx_main_v53 (ix2 n j) k = ix2 n k :=
  funext fun a => by match a with | ⟨0, _⟩ => rfl | ⟨1, _⟩ => rfl
private theorem ridx53_ix2 (n : Fin 1000000) (j k : Fin 128) : ridx_main_v53 (ix2 n j) k = ix2 k j :=
  funext fun a => by match a with | ⟨0, _⟩ => rfl | ⟨1, _⟩ => rfl
private theorem idx55_ix2 (n : Fin 1000000) (j : Fin 128) : idx_main_v54 (idx_main_v55 (ix2 n j)) = ix1 j :=
  funext fun a => by match a with | ⟨0, _⟩ => rfl

/-! ## The first layer -/

/-- If row n of the embedding array is e, the entry (n, j) of the first affine stage is the affine image of e. -/
private theorem v51_eq (n : Fin 1000000) (e : Fin 128 → EReal)
    (he : ∀ k, val_main_v47 (F := Ideal) x0 x1 x2 x3 x4 x5 x6 (ix2 n k) = e k) (j : Fin 128) :
    val_main_v51 (F := Ideal) x0 x1 x2 x3 x4 x5 x6 x7 x8 (ix2 n j) = affine e (sq x7) (vec x8) j := by
  have hs : ∑ k : Fin 128, val_main_v47 (F := Ideal) x0 x1 x2 x3 x4 x5 x6 (lidx_main_v48 (ix2 n j) k)
        * x7 (ridx_main_v48 (ix2 n j) k) = ∑ k : Fin 128, e k * sq x7 k j :=
    Finset.sum_congr rfl fun k _ => by rw [lidx48_ix2, ridx48_ix2, he k]; rfl
  rw [val_main_v51_apply, val_main_v48_apply, val_main_v50_apply, val_main_v49_apply, Ideal.addf_def, hs, idx50_ix2]
  rfl

/-- The first activation is silu of the first affine stage, entry by entry. -/
private theorem v52_silu (i : S1000000x128.Idx) :
    val_main_v52 (F := Ideal) x0 x1 x2 x3 x4 x5 x6 x7 x8 i
      = silu (val_main_v51 (F := Ideal) x0 x1 x2 x3 x4 x5 x6 x7 x8 i) := by
  rw [val_main_v52_apply, val_main_call2_v5_apply, val_main_call2_v4_apply, val_main_call2_cst_0_apply,
    val_main_call2_v3_apply, val_main_call2_v2_apply, val_main_call2_cst_apply, val_main_call2_v1_apply,
    val_main_call2_v0_apply]
  generalize val_main_v51 (F := Ideal) x0 x1 x2 x3 x4 x5 x6 x7 x8 i = z
  exact silu_word z

/-! ## The second layer -/

/-- If row n of the first activation is h, the entry (n, d) of the second affine stage is the affine image of h. -/
private theorem v56_eq (n : Fin 1000000) (h : Fin 128 → EReal)
    (hh : ∀ k, val_main_v52 (F := Ideal) x0 x1 x2 x3 x4 x5 x6 x7 x8 (ix2 n k) = h k) (d : Fin 128) :
    val_main_v56 (F := Ideal) x0 x1 x2 x3 x4 x5 x6 x7 x8 x9 x10 (ix2 n d) = affine h (sq x9) (vec x10) d := by
  have hs : ∑ k : Fin 128, val_main_v52 (F := Ideal) x0 x1 x2 x3 x4 x5 x6 x7 x8 (lidx_main_v53 (ix2 n d) k)
        * x9 (ridx_main_v53 (ix2 n d) k) = ∑ k : Fin 128, h k * sq x9 k d :=
    Finset.sum_congr rfl fun k _ => by rw [lidx53_ix2, ridx53_ix2, hh k]; rfl
  rw [val_main_v56_apply, val_main_v53_apply, val_main_v55_apply, val_main_v54_apply, Ideal.addf_def, hs, idx55_ix2]
  rfl

/-- The second activation is silu of the second affine stage, entry by entry. -/
private theorem v57_silu (i : S1000000x128.Idx) :
    val_main_v57 (F := Ideal) x0 x1 x2 x3 x4 x5 x6 x7 x8 x9 x10 i
      = silu (val_main_v56 (F := Ideal) x0 x1 x2 x3 x4 x5 x6 x7 x8 x9 x10 i) := by
  rw [val_main_v57_apply, val_main_call3_v5_apply, val_main_call3_v4_apply, val_main_call3_cst_0_apply,
    val_main_call3_v3_apply, val_main_call3_v2_apply, val_main_call3_cst_apply, val_main_call3_v1_apply,
    val_main_call3_v0_apply]
  generalize val_main_v56 (F := Ideal) x0 x1 x2 x3 x4 x5 x6 x7 x8 x9 x10 i = z
  exact silu_word z

/-! ## The result -/

/-- The reference's result is the result array of its eleven arguments. -/
theorem result_eq :
    val_main_v59 (F := Ideal) x0 x1 x2 x3 x4 x5 x6 x7 x8 x9 x10 = G x0 x1 x2 x3 x4 x5 x6 x7 x8 x9 x10 := by
  funext i
  obtain ⟨n, d, rfl⟩ : ∃ n d, i = ix2 n d := ⟨i 0, i 1, eq_ix2 i⟩
  have he := fun k => embed_eq x0 x1 x2 x3 x4 x5 x6 n k
  have h1 : ∀ j, val_main_v52 (F := Ideal) x0 x1 x2 x3 x4 x5 x6 x7 x8 (ix2 n j)
      = silu (affine (embed (attn x0 x1 x2 x3 x4 x5 n) (chargeOf x1 x2 n)
          (total x0 x1 x2 x3 x4 x5 (graphOf (x2 (ix1 n)))) (two x6)) (sq x7) (vec x8) j) := fun j => by
    rw [v52_silu, v51_eq x0 x1 x2 x3 x4 x5 x6 x7 x8 n _ he j]
  have h2 : val_main_v57 (F := Ideal) x0 x1 x2 x3 x4 x5 x6 x7 x8 x9 x10 (ix2 n d)
      = silu (affine (fun j => silu (affine (embed (attn x0 x1 x2 x3 x4 x5 n) (chargeOf x1 x2 n)
          (total x0 x1 x2 x3 x4 x5 (graphOf (x2 (ix1 n)))) (two x6)) (sq x7) (vec x8) j)) (sq x9) (vec x10) d) := by
    rw [v57_silu, v56_eq x0 x1 x2 x3 x4 x5 x6 x7 x8 x9 x10 n _ h1 d]
  rw [val_main_v59_apply, val_main_v58_apply, h2, he d, Ideal.addf_def, Ideal.addf_def, ← add_assoc]
  rfl

end Cert.ReferenceIdeal.RefValue

end
-- ==== Proof.lean ====
/-
  THE CERTIFICATE. A node's result row is x + e + silu(silu(e·W1 + b1)·W2 + b2), with e = score · value / total: the
  node's score is softplus of the scaled inner product of its query with its graph's key, the value and the key affine
  images of the graph's charge split into its positive and negative parts, and the total the sum of the scores of the
  nodes whose word names the graph. The kernel computes this in two passes over blocks of 4096 padded rows, gathering the
  graph's CHARGE per node and forming key and value inside the kernel, with the scores summed per graph between the
  passes on the host; the reference forms key and value per graph and gathers their ROWS per node. A gather commutes with
  an entrywise map, a padded row adds zero to its graph's total, and both sides apply the same total operations of the
  extended reals in the same order up to the associativity of a sum, so the two results are one function of the arguments
  (Proof/Spec.lean's G): no finiteness of the inputs is used. The three frames are the generated ones; nothing was
  rewritten by the idealization, so that conjunct is trivial.
-/
import proofs.«178402_j44057774522738_1_alg».proof.Defs
import proofs.«178402_j44057774522738_1_alg».proof.Proof.Gen.Kernel
import proofs.«178402_j44057774522738_1_alg».proof.Proof.Gen.Kernel.Frame
import proofs.«178402_j44057774522738_1_alg».proof.Proof.Gen.KernelIdeal
import proofs.«178402_j44057774522738_1_alg».proof.Proof.Gen.KernelIdeal.Frame
import proofs.«178402_j44057774522738_1_alg».proof.Proof.Gen.ReferenceIdeal
import proofs.«178402_j44057774522738_1_alg».proof.Proof.Gen.Pre_finite_inputs
import proofs.«178402_j44057774522738_1_alg».proof.Proof.KRun
import proofs.«178402_j44057774522738_1_alg».proof.Proof.KValue
import proofs.«178402_j44057774522738_1_alg».proof.Proof.RValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array of the arguments: the kernel's run with its result buffer named and read back
    through both regions, the reference's run read one operation at a time; the arguments agree. -/
theorem algebraic : Cert.algebraic_KernelIdeal_ReferenceIdeal := by
  intro m ρ m' ρ' _ hagree
  refine ⟨fun c => Cert.ChargeAttn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun _ h c => ⟨(h c).1.trans (Cert.KernelIdeal.Named.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v59_eq, Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
